-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S96x64 : Shape := ⟨2, ![96, 64]⟩
abbrev S64 : Shape := ⟨1, ![64]⟩
abbrev S64x64 : Shape := ⟨2, ![64, 64]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x800000_S1x800000_0_0 : S2x800000.Slices ![0, 0] S1x800000
  bcast_S_S1x800000 : S_.BroadcastsInDim S1x800000 (![] : Fin 0 → Fin S1x800000.rank)
  reducesTo_S1x800000_S_d0_1 : S1x800000.ReducesTo [0, 1] S_

variable [Facts]

def fn_part2 {F : FTy → Type} [FloatOps F] (main_v28 : IVec S_ 1) (main_v31 : IVec S1x800000 1) (main_v32 : IVec S1x800000 32) (main_v33 : IVec S1x800000 32) : IVec S_ 1 :=
  let main_v34 : IVec S1x800000 1 := cmpi .slt main_v32 main_v33
  let main_v35 : IVec S1x800000 1 := andi main_v31 main_v34
  let main_c_12 : IVec S_ 1 := constantI S_ 1 1#1
  let main_v36 : IVec S_ 1 := (fun x v => Host.reduce IntOp.andi x v reducesTo_S1x800000_S_d0_1 h_S_) main_v35 main_c_12
  let main_v37 : IVec S_ 1 := andi main_v28 main_v36
  main_v37

def fn_part1 {F : FTy → Type} [FloatOps F] (main_arg1 : IVec S2x800000 32) (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x800000 32 := (extractStridedSlice S1x800000 ![0, 0] · slices_S2x800000_S1x800000_0_0) main_arg1
  let main_c_10 : IVec S_ 32 := constantI S_ 32 0#32
  let main_v30 : IVec S1x800000 32 := broadcastInDim S1x800000 ![] bcast_S_S1x800000 main_c_10
  let main_v31 : IVec S1x800000 1 := cmpi .sge main_v29 main_v30
  let main_v32 : IVec S1x800000 32 := (extractStridedSlice S1x800000 ![0, 0] · slices_S2x800000_S1x800000_0_0) main_arg1
  let main_c_11 : IVec S_ 32 := constantI S_ 32 50000#32
  let main_v33 : IVec S1x800000 32 := broadcastInDim S1x800000 ![] bcast_S_S1x800000 main_c_11
  fn_part2 (F := F) main_v28 main_v31 main_v32 main_v33

def fn {F : FTy → Type} [FloatOps F] (main_arg0 : FVec F S50000x64 .f32) (main_arg1 : IVec S2x800000 32) (main_arg2 : FVec F S800000x32 .f32) (main_arg3 : FVec F S96x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x64 .f32 := Host.absf main_arg3
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S96x64 : Shape := ⟨2, ![96, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S32x64 : Shape := ⟨2, ![32, 64]⟩
abbrev S1x64 : Shape := ⟨2, ![1, 64]⟩
abbrev S5000x64 : Shape := ⟨2, ![5000, 64]⟩
abbrev S800000x64 : Shape := ⟨2, ![800000, 64]⟩
abbrev S10000x32 : Shape := ⟨2, ![10000, 32]⟩
abbrev S10000x64 : Shape := ⟨2, ![10000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x65 : Shape := ⟨2, ![800000, 65]⟩
abbrev S50000x65 : Shape := ⟨2, ![50000, 65]⟩
abbrev S5000x65 : Shape := ⟨2, ![5000, 65]⟩
abbrev S5000x1 : Shape := ⟨2, ![5000, 1]⟩

abbrev nBuf : Space → Nat
  | .hbm => 49
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S64x64, .f32⟩
  | .hbm, ⟨12, _⟩ => ⟨S32x64, .f32⟩
  | .hbm, ⟨13, _⟩ => ⟨S1x64, .f32⟩
  | .hbm, ⟨14, _⟩ => ⟨S1x64, .f32⟩
  | .hbm, ⟨15, _⟩ => ⟨S50000x64, .f32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x64, .f32⟩
  | .hbm, ⟨36, _⟩ => ⟨S800000x64, .i1⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000x1, .f32⟩
  | .hbm, ⟨43, _⟩ => ⟨S800000x65, .f32⟩
  | .hbm, ⟨44, _⟩ => ⟨S_, .f32⟩
  | .hbm, ⟨45, _⟩ => ⟨S50000x65, .f32⟩
  | .hbm, ⟨46, _⟩ => ⟨S800000x1, .i32⟩
  | .hbm, ⟨47, _⟩ => ⟨S50000x65, .f32⟩
  | .hbm, ⟨48, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S10000x32, .f32⟩
  | .local _ .vmem, ⟨7, _⟩ => ⟨S10000x32, .f32⟩
  | .local _ .vmem, ⟨8, _⟩ => ⟨S32x64, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S5000x65, .f32⟩
  | .local _ .vmem, ⟨14, _⟩ => ⟨S5000x65, .f32⟩
  | .local _ .vmem, ⟨15, _⟩ => ⟨S64x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_cst_0 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x65 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S96x64_S64x64_0_0 : S96x64.Slices ![0, 0] S64x64
  slices_S96x64_S32x64_64_0 : S96x64.Slices ![64, 0] S32x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S10000x32_S10000x32_0_0 : ∀ a, (![0, 0] : Fin 2 → Nat) a + S10000x32.size a ≤ S10000x32.size a
  h_S10000x32 : 0 < S10000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S10000x64_S10000x64_0_0 : ∀ a, (![0, 0] : Fin 2 → Nat) a + S10000x64.size a ≤ S10000x64.size a
  h_S10000x64 : 0 < S10000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x1_S800000x65_d1 : Shape.Concatenates [S800000x64, S800000x1] S800000x65 1
  bcast_S_S50000x65 : S_.BroadcastsInDim S50000x65 (![] : Fin 0 → Fin S50000x65.rank)
  inb_S5000x65_S5000x65_0_0 : ∀ a, (![0, 0] : Fin 2 → Nat) a + S5000x65.size a ≤ S5000x65.size a
  h_S5000x65 : 0 < S5000x65.numel
  shapeCasts_S5000x65_S5000x65 : S5000x65.ShapeCasts S5000x65
  slices_S5000x65_o0_0_S5000x64 : S5000x65.Slices ![0, 0] S5000x64
  slices_S5000x65_o0_64_S5000x1 : S5000x65.Slices ![0, 64] S5000x1
  broadcasts_S5000x1_S5000x64 : S5000x1.Broadcasts S5000x64
  dot_S5000x64_S64x64_S5000x64_1_0_0_1_n_n_wf : DotDims.WF S5000x64 S64x64 S5000x64 [1] [0] [0] [1] [] []
  dot_S10000x32_S32x64_S10000x64_1_0_0_1_n_n_wf : DotDims.WF S10000x32 S32x64 S10000x64 [1] [0] [0] [1] [] []
  gather_S50000x64_S800000x1_S800000x64_1_0_n_n_0_1_164_wf : GatherDims.WF S50000x64 S800000x1 S800000x64 [1] [0] [] [0] [] 1 ![1, 64]
  scatter_S50000x65_S800000x1_S800000x65_1_0_0_1_wf : ScatterDims.WF S50000x65 S800000x1 S800000x65 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S800000x32.size a
  hwx1_0 : ∀ i : grid1.Coords, EltTy.bits .f32 = 32 ∨ (Rect.block (s := S800000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S800000x64.size a
  hwx1_2 : ∀ i : grid1.Coords, EltTy.bits .f32 = 32 ∨ (Rect.block (s := S800000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x65.size a ≤ S50000x65.size a
  hwx2_1 : ∀ i : grid2.Coords, EltTy.bits .f32 = 32 ∨ (Rect.block (s := S50000x65) S5000x65.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x65.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S96x64 : Shape := ⟨2, ![96, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S1x64 : Shape := ⟨2, ![1, 64]⟩
abbrev S50000 : Shape := ⟨1, ![50000]⟩
abbrev S50000x1 : Shape := ⟨2, ![50000, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x96, .f32⟩
  | .hbm, ⟨21, _⟩ => ⟨S800000x64, .f32⟩
  | .hbm, ⟨22, _⟩ => ⟨S1x64, .f32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostReads.lean ====
/-
  The host operations around the three calls, read back as values.

  Before the first call the host cuts the two rows of edge_index into vectors (sources, destinations), cuts msg_w
  into its first 64 rows and its last 32, and lays the two bias vectors out as 1 x 64 rows. Between the second and the
  third call it (a) takes rows of the projected node table at the wrapped source indices, filling a row with the NaN
  word where the range test on the wrapped index fails (jnp.take's default mode), (b) adds the projected edge
  attributes, appends a column of ones, and scatter-adds the 65-column rows at the destination indices into zeros:
  columns 0..63 of the result are the per-node sums, column 64 the per-node count.
  Each lemma here says what one stretch of operations leaves in one buffer, as a function of what the stretch found.
-/
import proofs.«408647_j9775345566348_3_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## The values -/

/-- Row 0 of edge_index as a vector: the edges' sources. -/
def srcVec (ei : IVec S2x800000 32) : IVec S800000 32 :=
  shapeCast S800000 (extractStridedSlice S1x800000 ![0, 0] ei slices_S2x800000_S1x800000_0_0) shapeCasts_S1x800000_S800000
/-- Row 1 of edge_index as a vector: the edges' destinations. -/
def dstVec (ei : IVec S2x800000 32) : IVec S800000 32 :=
  shapeCast S800000 (extractStridedSlice S1x800000 ![1, 0] ei slices_S2x800000_S1x800000_1_0) shapeCasts_S1x800000_S800000
/-- Rows 0..63 of msg_w: the weight the node features meet. -/
def nodeW (mw : FVec F S96x64 .f32) : FVec F S64x64 .f32 := extractStridedSlice S64x64 ![0, 0] mw slices_S96x64_S64x64_0_0
/-- Rows 64..95 of msg_w: the weight the edge attributes meet. -/
def edgeW (mw : FVec F S96x64 .f32) : FVec F S32x64 .f32 := extractStridedSlice S32x64 ![64, 0] mw slices_S96x64_S32x64_64_0
/-- A 64-vector as a 1 x 64 row. -/
def asRow (b : FVec F S64 .f32) : FVec F S1x64 .f32 := shapeCast S1x64 b shapeCasts_S64_S1x64

/-- jnp's wrap of negative indices, as an [E, 1] column of start indices. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The range test of the filling take, per edge: the wrapped index is at least 0 and at most 49999. -/
def inRange (src : IVec S800000 32) : IVec S800000 1 :=
  Host.reduce IntOp.andi
    (andi (cmpi .sge (wrapIdx src) (broadcastInDim S800000x1 ![] bcast_S_S800000x1 (constantI S_ 32 0#32)))
      (cmpi .sle (wrapIdx src)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- jnp.take of a 50000 x 64 table at the sources, default mode: the gathered rows where the test passes, the NaN word elsewhere. -/
def takeVal (tbl : FVec F S50000x64 .f32) (src : IVec S800000 32) : FVec F S800000x64 .f32 :=
  select (broadcastInDim S800000x64 ![0] bcast_S800000_S800000x64_0 (inRange src))
    (Host.gather gather_S50000x64_S800000x1_S800000x64_1_0_n_n_0_1_164 tbl (wrapIdx src))
    (broadcastInDim S800000x64 ![] bcast_S_S800000x64 (constant S_ .f32 0x7FC00000#32))

/-- The per-node sums and count: messages (taken rows plus projected edge attributes) with a column of ones appended,
    scatter-added at the destinations into zeros. -/
def sumsAndCount (taken eaw : FVec F S800000x64 .f32) (dst : IVec S800000 32) : FVec F S50000x65 .f32 :=
  Host.scatterAdd scatter_S50000x65_S800000x1_S800000x65_1_0_0_1
    (broadcastInDim S50000x65 ![] bcast_S_S50000x65 (constant S_ .f32 0x00000000#32))
    (broadcastInDim S800000x1 ![0] bcast_S800000_S800000x1_0 dst)
    (concatenate S800000x65 1
      [⟨S800000x64, addf taken eaw⟩,
        ⟨S800000x1, broadcastInDim S800000x1 ![] bcast_S_S800000x1 (constant S_ .f32 0x3F800000#32)⟩]
      concatenates_S800000x64_S800000x1_S800000x65_d1)

/-! ## The stretch before the first call -/

section Before
variable (U : Valuation τ sig (Elt F))

theorem before_v1 : StableHlo.after (hostOps0 (F := F)) U (Proc.devRef .tc main_v1) = srcVec (U (Proc.devRef .tc main_arg1)) := by
  after_results; rfl
theorem before_v3 : StableHlo.after (hostOps0 (F := F)) U (Proc.devRef .tc main_v3) = dstVec (U (Proc.devRef .tc main_arg1)) := by
  after_results; rfl
theorem before_v4 : StableHlo.after (hostOps0 (F := F)) U (Proc.devRef .tc main_v4) = nodeW (U (Proc.devRef .tc main_arg3)) := by
  after_results; rfl
theorem before_v5 : StableHlo.after (hostOps0 (F := F)) U (Proc.devRef .tc main_v5) = edgeW (U (Proc.devRef .tc main_arg3)) := by
  after_results; rfl
theorem before_v6 : StableHlo.after (hostOps0 (F := F)) U (Proc.devRef .tc main_v6) = asRow (U (Proc.devRef .tc main_arg4)) := by
  after_results; rfl
theorem before_v7 : StableHlo.after (hostOps0 (F := F)) U (Proc.devRef .tc main_v7) = asRow (U (Proc.devRef .tc main_arg6)) := by
  after_results; rfl
theorem before_arg0 : StableHlo.after (hostOps0 (F := F)) U (Proc.devRef .tc main_arg0) = U (Proc.devRef .tc main_arg0) := by
  after_results
theorem before_arg2 : StableHlo.after (hostOps0 (F := F)) U (Proc.devRef .tc main_arg2) = U (Proc.devRef .tc main_arg2) := by
  after_results

end Before

/-! ## The take, and the sums and count -/

section Between
variable (U : Valuation τ sig (Elt F))

set_option maxHeartbeats 4000000 in
theorem take_v10 : StableHlo.after (hostOps2 (F := F)) U (Proc.devRef .tc main_v10)
    = takeVal (U (Proc.devRef .tc main_v8)) (U (Proc.devRef .tc main_v1)) := by
  unfold takeVal inRange wrapIdx
  after_results_simp
  simp only [TRef.toBuf, TRef.ofBuf, cast_eq]
theorem take_v9 : StableHlo.after (hostOps2 (F := F)) U (Proc.devRef .tc main_v9) = U (Proc.devRef .tc main_v9) := by
  after_results
theorem take_v3 : StableHlo.after (hostOps2 (F := F)) U (Proc.devRef .tc main_v3) = U (Proc.devRef .tc main_v3) := by
  after_results
theorem take_v7 : StableHlo.after (hostOps2 (F := F)) U (Proc.devRef .tc main_v7) = U (Proc.devRef .tc main_v7) := by
  after_results

theorem sums_v16 : StableHlo.after (hostOps2_1 (F := F)) U (Proc.devRef .tc main_v16)
    = sumsAndCount (U (Proc.devRef .tc main_v10)) (U (Proc.devRef .tc main_v9)) (U (Proc.devRef .tc main_v3)) := by
  after_results; rfl
theorem sums_v7 : StableHlo.after (hostOps2_1 (F := F)) U (Proc.devRef .tc main_v7) = U (Proc.devRef .tc main_v7) := by
  after_results

end Between

end Cert.KernelIdeal.Host

end
-- ==== Proof.LibPlainDot.lean ====
/-
  A plain matrix product read at one element.

  For the dimension numbers of an [M, K] by [K, N] product with no batch axis (`DotDims.plain`: the left operand's
  axis 1 contracted against the right operand's axis 0), the sum over the contraction shape's indices is the sum
  over `k : Fin K` of the left operand at (row, k) times the right operand at (k, column). Over the extended reals
  this reads a `tpu.matmul` into a zero accumulator and a host `dot_general` alike: element (r, c) of either is
  that sum, so the two agree on equal operands.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's index at output (r, c) and contraction coordinate k is (r, k). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a; refine Fin.ext ?_
  match a with
  | ⟨0, _⟩ => rfl
  | ⟨1, _⟩ => exact ((DotDims.plain M K N).lhsIdx_val_of_single rfl j _).trans hk

/-- The right operand's index there is (k, c). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a; refine Fin.ext ?_
  match a with
  | ⟨0, _⟩ => exact ((DotDims.plain M K N).rhsIdx_val_of_single rfl j _).trans hk
  | ⟨1, _⟩ => rfl

/-- The contraction's sum, re-indexed by the contracted coordinate. -/
theorem sum_contr {α : Type} [AddCommMonoid α] (f : (⟨2, ![M, K]⟩ : Shape).Idx → (⟨2, ![K, N]⟩ : Shape).Idx → α)
    (j : (⟨2, ![M, N]⟩ : Shape).Idx) :
    ∑ q : (DotDims.plain M K N).contr.Idx, f ((DotDims.plain M K N).lhsIdx j q) ((DotDims.plain M K N).rhsIdx j q)
      = ∑ k : Fin K, f (ix2 (j 0) k) (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, over the extended reals, at (r, c). -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact sum_contr (fun a b => (l a : EReal) * (r b : EReal)) j

/-- A host `dot_general`, over the extended reals, at (r, c). -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact sum_contr (fun a b => (l a : EReal) * (r b : EReal)) j

end Idealize.ShloMosaic.PlainDot

end
-- ==== Proof.Payloads.lean ====
/-
  What each kernel body stores, read at one element over the extended reals.

  Node projection (rows of x against the first 64 rows of msg_w, plus msg_b): element (p, q) of the stored block is
  the sum over k of x[p, k] * w[k, q], plus b[0, q]. Edge projection: element (p, q) is the sum over k of
  ea[p, k] * w[k, q]. Self term and mean: element (p, q) is (sum over k of x[p, k] * w[k, q] + b[0, q]) plus
  ad[p, q] divided by max(ad[p, 64], 1), where column 64 of ad is the row's count. The casts to bf16 and back are
  the identity on extended reals, and the matrix unit's product into a zero accumulator is the plain sum of products.
-/
import proofs.«408647_j9775345566348_3_alg».proof.Proof.Gen.KernelIdeal.Skeleton
import proofs.«408647_j9775345566348_3_alg».proof.Proof.LibPlainDot
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- A [1, 64] row broadcast down 5000 rows reads the row's column. -/
theorem rowBcast_apply (b : Vec Ideal S1x64 .f32) (h : S1x64.Broadcasts S5000x64) (p : Fin 5000) (q : Fin 64) :
    broadcastTo S5000x64 b h (ix2 p q) = b (ix2 (0 : Fin 1) q) :=
  broadcastTo_apply b h (ix2 p q) (ix2 (0 : Fin 1) q) (fun a => by match a with | ⟨0, _⟩ => rfl | ⟨1, _⟩ => rfl)

/-- A [5000, 1] column broadcast across 64 columns reads the column's row. -/
theorem colBcast_apply (v : Vec Ideal S5000x1 .f32) (h : S5000x1.Broadcasts S5000x64) (p : Fin 5000) (q : Fin 64) :
    broadcastTo S5000x64 v h (ix2 p q) = v (ix2 p (0 : Fin 1)) :=
  broadcastTo_apply v h (ix2 p q) (ix2 p (0 : Fin 1)) (fun a => by match a with | ⟨0, _⟩ => rfl | ⟨1, _⟩ => rfl)

/-- NODE PROJECTION at (p, q). -/
theorem nodeProj_apply (x : Vec Ideal S5000x64 .f32) (w : Vec Ideal S64x64 .f32) (b : Vec Ideal S1x64 .f32)
    (p : Fin 5000) (q : Fin 64) :
    k0_pay1 (F := Ideal) x w b (ix2 p q) = (∑ k : Fin 64, x (ix2 p k) * w (ix2 k q)) + b (ix2 (0 : Fin 1) q) := by
  unfold k0_pay1
  rw [addf_apply, shapeCast_self, shapeCast_self, rowBcast_apply]
  refine congrArg (· + b (ix2 (0 : Fin 1) q)) ?_
  refine (PlainDot.matmul_zero_apply (M := 5000) (K := 64) (N := 64) none _ _ (ix2 p q)).trans ?_
  rfl

/-- EDGE PROJECTION at (p, q). -/
theorem edgeProj_apply (ea : Vec Ideal S10000x32 .f32) (w : Vec Ideal S32x64 .f32) (p : Fin 10000) (q : Fin 64) :
    k1_pay1 (F := Ideal) ea w (ix2 p q) = ∑ k : Fin 32, ea (ix2 p k) * w (ix2 k q) := by
  unfold k1_pay1
  rw [shapeCast_self]
  refine (PlainDot.matmul_zero_apply (M := 10000) (K := 32) (N := 64) none _ _ (ix2 p q)).trans ?_
  rfl

/-- Column q of the 64 sums, as a column of the 65-wide sums-and-count array. -/
def sumCol (q : Fin 64) : Fin 65 := ⟨q.val, by omega⟩
/-- The count's column, the last of the 65. -/
def cntCol : Fin 65 := ⟨64, by decide⟩

/-- SELF TERM PLUS MEAN at (p, q): column 64 of `ad` is the count the sum in column q is divided by, raised to one. -/
theorem selfCombine_apply (x : Vec Ideal S5000x64 .f32) (w : Vec Ideal S64x64 .f32) (b : Vec Ideal S1x64 .f32)
    (ad : Vec Ideal S5000x65 .f32) (p : Fin 5000) (q : Fin 64) :
    k2_pay1 (F := Ideal) x w b ad (ix2 p q)
      = ((∑ k : Fin 64, x (ix2 p k) * w (ix2 k q)) + b (ix2 (0 : Fin 1) q))
        + Ideal.div (ad (ix2 p (sumCol q))) (max (ad (ix2 p cntCol)) (Ideal.ofBits .f32 0x3F800000#32)) := by
  unfold k2_pay1
  rw [addf_apply, addf_apply, divf_apply, shapeCast_self, shapeCast_self, rowBcast_apply, colBcast_apply, maximumf_apply,
    broadcast_apply]
  have hnum : extractStridedSlice S5000x64 ![0, 0] ad slices_S5000x65_o0_0_S5000x64 (ix2 p q)
      = ad (ix2 p (sumCol q)) :=
    extractStridedSlice_apply _ ad _ (ix2 p q) (ix2 p (sumCol q))
      (fun a => by match a with | ⟨0, _⟩ => exact (Nat.zero_add _).symm | ⟨1, _⟩ => exact (Nat.zero_add _).symm)
  have hden : extractStridedSlice S5000x1 ![0, 64] ad slices_S5000x65_o0_64_S5000x1 (ix2 p (0 : Fin 1))
      = ad (ix2 p cntCol) :=
    extractStridedSlice_apply _ ad _ (ix2 p (0 : Fin 1)) (ix2 p cntCol)
      (fun a => by match a with | ⟨0, _⟩ => exact (Nat.zero_add _).symm | ⟨1, _⟩ => rfl)
  rw [hnum, hden]
  refine congrArg (· + Ideal.div _ _) ?_
  refine congrArg (· + b (ix2 (0 : Fin 1) q)) ?_
  refine (PlainDot.matmul_zero_apply (M := 5000) (K := 64) (N := 64) none _ _ (ix2 p q)).trans ?_
  rfl

end Cert.KernelIdeal.Body

end
-- ==== Proof.NodeProj.lean ====
/-
  The node projection's result array, whole.

  The first pallas_call walks ten blocks of 5000 rows. At point t it reads rows 5000 t .. 5000 t + 4999 of x, the
  whole 64 x 64 weight and the 1 x 64 bias, and writes rows 5000 t .. 5000 t + 4999 of its result. Each block written
  is therefore the restriction of ONE function of the whole arrays: element (n, o) is the sum over k of
  x[n, k] * w[k, o], plus b[0, o]. The ten row blocks tile the 50000 rows (row n lies in block n / 5000), so after the
  call the result array IS that function, whatever it held before.
-/
import proofs.«408647_j9775345566348_3_alg».proof.Proof.Gen.KernelIdeal.Frame
import proofs.«408647_j9775345566348_3_alg».proof.Proof.Payloads
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.NodeProj

open Cert.KernelIdeal Cert.KernelIdeal.Gen Cert.KernelIdeal.Body

variable (V : (c : Dev nD) → (b : Ref sig .tc) → Buf (Elt Ideal) ((c : Thread nD τ).loc b))

/-- Rows of a table against a weight, plus a bias row: element (n, o). -/
def proj (x : Vec Ideal S50000x64 .f32) (w : Vec Ideal S64x64 .f32) (b : Vec Ideal S1x64 .f32) : Vec Ideal S50000x64 .f32 :=
  fun i => (∑ k : Fin 64, x (ix2 (i 0) k) * w (ix2 k (i 1))) + b (ix2 (0 : Fin 1) (i 1))

theorem hz : (![0, 0] : Fin 2 → Nat) = fun _ => 0 := funext fun a => by fin_cases a <;> rfl

/-- The printed index maps over the ten points: the row windows sit at block t, the weight and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_ten (t : Fin cfg0.N) : t.val < 10 := lt_of_lt_of_eq t.isLt (show cfg0.N = 10 from N_0)

/-- Row p of block t is row 5000 t + p of the array. -/
def rowOf (t : Fin cfg0.N) (p : Fin 5000) : Fin 50000 := ⟨t.val * 5000 + p.val, by have := lt_ten t; have := p.isLt; omega⟩

/-- The x block at point t, at (p, k), is x at (5000 t + p, k). -/
theorem xblk_apply (c : Dev nD) (t : Fin cfg0.N) (p : Fin 5000) (k : Fin 64) :
    (iblk0 V c 0 t : Vec Ideal S5000x64 .f32) (ix2 p k) = (V c main_arg0 : Vec Ideal S50000x64 .f32) (ix2 (rowOf t p) k) := by
  obtain ⟨e0, e1, -⟩ := idx_facts t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The weight block at every point is the whole weight. -/
theorem wblk_apply (c : Dev nD) (t : Fin cfg0.N) (k q : Fin 64) :
    (iblk0 V c 1 t : Vec Ideal S64x64 .f32) (ix2 k q) = (V c main_v4 : Vec Ideal S64x64 .f32) (ix2 k q) := by
  obtain ⟨-, -, e2, e3, -⟩ := idx_facts t
  show V c main_v4 (((cfg0.win 1).blk t).view.emb (ix2 k q)) = V c main_v4 (ix2 k q)
  refine congrArg (V c main_v4) (funext fun a => Fin.ext ?_)
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- The bias block at every point is the whole bias row. -/
theorem bblk_apply (c : Dev nD) (t : Fin cfg0.N) (q : Fin 64) :
    (iblk0 V c 2 t : Vec Ideal S1x64 .f32) (ix2 (0 : Fin 1) q) = (V c main_v6 : Vec Ideal S1x64 .f32) (ix2 (0 : Fin 1) q) := by
  obtain ⟨-, -, -, -, e4, e5, -⟩ := idx_facts t
  show V c main_v6 (((cfg0.win 2).blk t).view.emb (ix2 (0 : Fin 1) q)) = V c main_v6 (ix2 (0 : Fin 1) q)
  refine congrArg (V c main_v6) (funext fun a => Fin.ext ?_)
  match a with
  | ⟨0, _⟩ => show win0_2.index t (0 : Fin 2) * 1 + 1 * 0 = 0; rw [e4]
  | ⟨1, _⟩ => show win0_2.index t (1 : Fin 2) * 64 + 1 * q.val = q.val; rw [e5]; omega

/-- Element (p, q) of the result's block t is element (5000 t + p, q) of the result. -/
theorem oblk_emb (t : Fin cfg0.N) (p : Fin 5000) (q : Fin 64) :
    ((cfg0.win 3).blk t).view.emb (ix2 p q) = (ix2 (rowOf t p) q : S50000x64.Idx) := by
  obtain ⟨-, -, -, -, -, -, e6, e7⟩ := idx_facts t
  refine funext fun a => Fin.ext ?_
  match a with
  | ⟨0, _⟩ => show win0_3.index t (0 : Fin 2) * 5000 + 1 * p.val = t.val * 5000 + p.val; rw [e6]; omega
  | ⟨1, _⟩ => show win0_3.index t (1 : Fin 2) * 64 + 1 * q.val = q.val; rw [e7]; omega

/-- WHAT POINT t WRITES BACK is block t of the projection of the arrays as the call finds them. -/
theorem flushed_eq (c : Dev nD) (t : Fin cfg0.N) :
    (dat0 V c).flushed 3 t = ((cfg0.win 3).blk t).view.read (Elt Ideal) (proj (V c main_arg0) (V c main_v4) (V c main_v6)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = proj (V c main_arg0) (V c main_v4) (V c main_v6) (((cfg0.win 3).blk t).view.emb (ix2 p q))
  rw [oblk_emb]
  refine (nodeProj_apply (iblk0 V c 0 t) (iblk0 V c 1 t) (iblk0 V c 2 t) p q).trans ?_
  exact congrArg₂ (· + ·)
    (Finset.sum_congr rfl fun k _ => congrArg₂ (· * ·) (xblk_apply V c t p k) (wblk_apply V c t k q))
    (bblk_apply V c t q)

/-- An index of the array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v8).slice (win0_3.rect t)).set ↔ _
  rw [View.set_slice_whole, Rect.mem_set_unit]
  exact Iff.rfl

/-- Every row lies in the block of its quotient by 5000. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 64 ≤ (i 1).val ∧ (i 1).val < win0_3.index t (1 : Fin 2) * 64 + 64
    rw [e7]; omega

/-- THE ARRAY after the call: the projection of the arrays the call found. -/
theorem final (c : Dev nD) :
    (dat0 V c).arrAt 3 cfg0.N = proj (V c main_arg0) (V c main_v4) (V c main_v6) :=
  (dat0 V c).arrAt_eq_of_cover 3 (proj (V c main_arg0) (V c main_v4) (V c main_v6)) (fun t _ => flushed_eq V c t) covered

end Cert.KernelIdeal.NodeProj

end
-- ==== Proof.EdgeProj.lean ====
/-
  The edge projection's result array, whole.

  The second pallas_call walks eighty blocks of 10000 edges. At point t it reads edges 10000 t .. 10000 t + 9999 of
  edge_attr and the whole 32 x 64 weight (rows 64..95 of msg_w, cut out by the host before the call), and writes the
  same edges of its result. Element (e, o) of the result is the sum over k of ea[e, k] * w[k, o]; the eighty blocks
  tile the 800000 edges (edge e lies in block e / 10000).
-/
import proofs.«408647_j9775345566348_3_alg».proof.Proof.Gen.KernelIdeal.Frame
import proofs.«408647_j9775345566348_3_alg».proof.Proof.Payloads
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.EdgeProj

open Cert.KernelIdeal Cert.KernelIdeal.Gen Cert.KernelIdeal.Body

variable (V : (c : Dev nD) → (b : Ref sig .tc) → Buf (Elt Ideal) ((c : Thread nD τ).loc b))

/-- Edge attributes against their weight: element (e, o). -/
def proj (ea : Vec Ideal S800000x32 .f32) (w : Vec Ideal S32x64 .f32) : Vec Ideal S800000x64 .f32 :=
  fun i => ∑ k : Fin 32, ea (ix2 (i 0) k) * w (ix2 k (i 1))

theorem hz : (![0, 0] : Fin 2 → Nat) = fun _ => 0 := funext fun a => by fin_cases a <;> rfl

/-- The printed index maps over the eighty points: the edge windows sit at block t, the weight at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_eighty (t : Fin cfg1.N) : t.val < 80 := lt_of_lt_of_eq t.isLt (show cfg1.N = 80 from N_1)

/-- Edge p of block t is edge 10000 t + p. -/
def edgeOf (t : Fin cfg1.N) (p : Fin 10000) : Fin 800000 :=
  ⟨t.val * 10000 + p.val, by have := lt_eighty t; have := p.isLt; omega⟩

/-- The edge_attr block at point t, at (p, k), is edge_attr at (10000 t + p, k). -/
theorem eablk_apply (c : Dev nD) (t : Fin cfg1.N) (p : Fin 10000) (k : Fin 32) :
    (iblk1 V c 0 t : Vec Ideal S10000x32 .f32) (ix2 p k) = (V c main_arg2 : Vec Ideal S800000x32 .f32) (ix2 (edgeOf t p) k) := by
  obtain ⟨e0, e1, -⟩ := idx_facts t
  show V c main_arg2 (((cfg1.win 0).blk t).view.emb (ix2 p k)) = V c main_arg2 (ix2 (edgeOf t p) k)
  refine congrArg (V c main_arg2) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 32 + 1 * k.val = k.val; rw [e1]; omega

/-- The weight block at every point is the whole weight. -/
theorem wblk_apply (c : Dev nD) (t : Fin cfg1.N) (k : Fin 32) (q : Fin 64) :
    (iblk1 V c 1 t : Vec Ideal S32x64 .f32) (ix2 k q) = (V c main_v5 : Vec Ideal S32x64 .f32) (ix2 k q) := by
  obtain ⟨-, -, e2, e3, -⟩ := idx_facts t
  show V c main_v5 (((cfg1.win 1).blk t).view.emb (ix2 k q)) = V c main_v5 (ix2 k q)
  refine congrArg (V c main_v5) (funext fun a => Fin.ext ?_)
  match a with
  | ⟨0, _⟩ => show win1_1.index t (0 : Fin 2) * 32 + 1 * k.val = k.val; rw [e2]; omega
  | ⟨1, _⟩ => show win1_1.index t (1 : Fin 2) * 64 + 1 * q.val = q.val; rw [e3]; omega

/-- Element (p, q) of the result's block t is element (10000 t + p, q) of the result. -/
theorem oblk_emb (t : Fin cfg1.N) (p : Fin 10000) (q : Fin 64) :
    ((cfg1.win 2).blk t).view.emb (ix2 p q) = (ix2 (edgeOf t p) q : S800000x64.Idx) := by
  obtain ⟨-, -, -, -, e4, e5⟩ := idx_facts t
  refine funext fun a => Fin.ext ?_
  match a with
  | ⟨0, _⟩ => show win1_2.index t (0 : Fin 2) * 10000 + 1 * p.val = t.val * 10000 + p.val; rw [e4]; omega
  | ⟨1, _⟩ => show win1_2.index t (1 : Fin 2) * 64 + 1 * q.val = q.val; rw [e5]; omega

/-- WHAT POINT t WRITES BACK is block t of the projection of the arrays as the call finds them. -/
theorem flushed_eq (c : Dev nD) (t : Fin cfg1.N) :
    (dat1 V c).flushed 2 t = ((cfg1.win 2).blk t).view.read (Elt Ideal) (proj (V c main_arg2) (V c main_v5)) := by
  show (cfg1.win 2).cut (grid1.coords t) ((dat1 V c).after 2 t) = _
  rw [after1_2]
  unfold out1_2
  rw [View.canon_unit_zero hz]
  simp only [View.ld_unit_zero (S := S10000x32) hz, View.ld_unit_zero (S := S32x64) hz]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q)
    = proj (V c main_arg2) (V c main_v5) (((cfg1.win 2).blk t).view.emb (ix2 p q))
  rw [oblk_emb]
  refine (edgeProj_apply (iblk1 V c 0 t) (iblk1 V c 1 t) p q).trans ?_
  exact Finset.sum_congr rfl fun k _ => congrArg₂ (· * ·) (eablk_apply V c t p k) (wblk_apply V c t k q)

/-- An index of the array is in point t's block iff each coordinate is in the block's range on its axis. -/
theorem mem_blk (t : Fin cfg1.N) (i : S800000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v9).slice (win1_2.rect t)).set ↔ _
  rw [View.set_slice_whole, Rect.mem_set_unit]
  exact Iff.rfl

/-- Every edge lies in the block of its quotient by 10000. -/
theorem covered (i : S800000x64.Idx) : ∃ t : Fin cfg1.N, (cfg1.win 2).flush t = true ∧ i ∈ ((cfg1.win 2).blk t).view.set := by
  have hi0 : (i 0).val < 800000 := (i 0).isLt
  have hi1 : (i 1).val < 64 := (i 1).isLt
  have hN : cfg1.N = 80 := N_1
  obtain ⟨t, ht⟩ : ∃ t : Fin cfg1.N, t.val = (i 0).val / 10000 := ⟨⟨(i 0).val / 10000, by rw [hN]; omega⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 64 ≤ (i 1).val ∧ (i 1).val < win1_2.index t (1 : Fin 2) * 64 + 64
    rw [e5]; omega

/-- THE ARRAY after the call: the projection of the arrays the call found. -/
theorem final (c : Dev nD) : (dat1 V c).arrAt 2 cfg1.N = proj (V c main_arg2) (V c main_v5) :=
  (dat1 V c).arrAt_eq_of_cover 2 (proj (V c main_arg2) (V c main_v5)) (fun t _ => flushed_eq V c t) covered

end Cert.KernelIdeal.EdgeProj

end
-- ==== Proof.SelfCombine.lean ====
/-
  The last call's result array, whole: the self term plus the mean of the incoming messages.

  The third pallas_call walks ten blocks of 5000 nodes. At point t it reads nodes 5000 t .. 5000 t + 4999 of x and of
  the 65-column array of per-node sums and count (columns 0..63 the sums, column 64 the count), the whole 64 x 64 self
  weight and the 1 x 64 self bias, and writes the same nodes of its result. Element (n, o) of the result is
  (sum over k of x[n, k] * w[k, o] + b[0, o]) + ad[n, o] / max(ad[n, 64], 1). The ten blocks tile the 50000 nodes.
-/
import proofs.«408647_j9775345566348_3_alg».proof.Proof.Gen.KernelIdeal.Frame
import proofs.«408647_j9775345566348_3_alg».proof.Proof.Payloads
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.SelfCombine

open Cert.KernelIdeal Cert.KernelIdeal.Gen Cert.KernelIdeal.Body

variable (V : (c : Dev nD) → (b : Ref sig .tc) → Buf (Elt Ideal) ((c : Thread nD τ).loc b))

/-- Self term plus the mean: element (n, o), from x, the sums-and-count array, the self weight and the self bias row. -/
def comb (x : Vec Ideal S50000x64 .f32) (ad : Vec Ideal S50000x65 .f32) (w : Vec Ideal S64x64 .f32) (b : Vec Ideal S1x64 .f32) :
    Vec Ideal S50000x64 .f32 :=
  fun i => ((∑ k : Fin 64, x (ix2 (i 0) k) * w (ix2 k (i 1))) + b (ix2 (0 : Fin 1) (i 1)))
    + Ideal.div (ad (ix2 (i 0) (sumCol (i 1)))) (max (ad (ix2 (i 0) cntCol)) (Ideal.ofBits .f32 0x3F800000#32))

theorem hz : (![0, 0] : Fin 2 → Nat) = fun _ => 0 := funext fun a => by fin_cases a <;> rfl

/-- The printed index maps over the ten points: the node windows sit at block t, the weight and the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt_ten (t : Fin cfg2.N) : t.val < 10 := lt_of_lt_of_eq t.isLt (show cfg2.N = 10 from N_2)

/-- Node p of block t is node 5000 t + p. -/
def nodeOf (t : Fin cfg2.N) (p : Fin 5000) : Fin 50000 := ⟨t.val * 5000 + p.val, by have := lt_ten t; have := p.isLt; omega⟩

/-- The x block at point t, at (p, k), is x at (5000 t + p, k). -/
theorem xblk_apply (c : Dev nD) (t : Fin cfg2.N) (p : Fin 5000) (k : Fin 64) :
    (iblk2 V c 0 t : Vec Ideal S5000x64 .f32) (ix2 p k) = (V c main_arg0 : Vec Ideal S50000x64 .f32) (ix2 (nodeOf t p) k) := by
  obtain ⟨e0, e1, -⟩ := idx_facts t
  show V c main_arg0 (((cfg2.win 0).blk t).view.emb (ix2 p k)) = V c main_arg0 (ix2 (nodeOf t p) k)
  refine congrArg (V c main_arg0) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- The sums-and-count block at point t, at (p, j), is that array at (5000 t + p, j). -/
theorem adblk_apply (c : Dev nD) (t : Fin cfg2.N) (p : Fin 5000) (j : Fin 65) :
    (iblk2 V c 1 t : Vec Ideal S5000x65 .f32) (ix2 p j) = (V c main_v16 : Vec Ideal S50000x65 .f32) (ix2 (nodeOf t p) j) := by
  obtain ⟨-, -, e2, e3, -⟩ := idx_facts t
  show V c main_v16 (((cfg2.win 1).blk t).view.emb (ix2 p j)) = V c main_v16 (ix2 (nodeOf t p) j)
  refine congrArg (V c main_v16) (funext fun a => Fin.ext ?_)
  match a with
  | ⟨0, _⟩ => show win2_1.index t (0 : Fin 2) * 5000 + 1 * p.val = t.val * 5000 + p.val; rw [e2]; omega
  | ⟨1, _⟩ => show win2_1.index t (1 : Fin 2) * 65 + 1 * j.val = j.val; rw [e3]; omega

/-- The self weight block at every point is the whole weight. -/
theorem wblk_apply (c : Dev nD) (t : Fin cfg2.N) (k q : Fin 64) :
    (iblk2 V c 2 t : Vec Ideal S64x64 .f32) (ix2 k q) = (V c main_arg5 : Vec Ideal S64x64 .f32) (ix2 k q) := by
  obtain ⟨-, -, -, -, e4, e5, -⟩ := idx_facts t
  show V c main_arg5 (((cfg2.win 2).blk t).view.emb (ix2 k q)) = V c main_arg5 (ix2 k q)
  refine congrArg (V c main_arg5) (funext fun a => Fin.ext ?_)
  match a with
  | ⟨0, _⟩ => show win2_2.index t (0 : Fin 2) * 64 + 1 * k.val = k.val; rw [e4]; omega
  | ⟨1, _⟩ => show win2_2.index t (1 : Fin 2) * 64 + 1 * q.val = q.val; rw [e5]; omega

/-- The self bias block at every point is the whole bias row. -/
theorem bblk_apply (c : Dev nD) (t : Fin cfg2.N) (q : Fin 64) :
    (iblk2 V c 3 t : Vec Ideal S1x64 .f32) (ix2 (0 : Fin 1) q) = (V c main_v7 : Vec Ideal S1x64 .f32) (ix2 (0 : Fin 1) q) := by
  obtain ⟨-, -, -, -, -, -, e6, e7, -⟩ := idx_facts t
  show V c main_v7 (((cfg2.win 3).blk t).view.emb (ix2 (0 : Fin 1) q)) = V c main_v7 (ix2 (0 : Fin 1) q)
  refine congrArg (V c main_v7) (funext fun a => Fin.ext ?_)
  match a with
  | ⟨0, _⟩ => show win2_3.index t (0 : Fin 2) * 1 + 1 * 0 = 0; rw [e6]
  | ⟨1, _⟩ => show win2_3.index t (1 : Fin 2) * 64 + 1 * q.val = q.val; rw [e7]; omega

/-- Element (p, q) of the result's block t is element (5000 t + p, q) of the result. -/
theorem oblk_emb (t : Fin cfg2.N) (p : Fin 5000) (q : Fin 64) :
    ((cfg2.win 4).blk t).view.emb (ix2 p q) = (ix2 (nodeOf t p) q : S50000x64.Idx) := by
  obtain ⟨-, -, -, -, -, -, -, -, e8, e9⟩ := idx_facts t
  refine funext fun a => Fin.ext ?_
  match a with
  | ⟨0, _⟩ => show win2_4.index t (0 : Fin 2) * 5000 + 1 * p.val = t.val * 5000 + p.val; rw [e8]; omega
  | ⟨1, _⟩ => show win2_4.index t (1 : Fin 2) * 64 + 1 * q.val = q.val; rw [e9]; omega

/-- WHAT POINT t WRITES BACK is block t of the combination of the arrays as the call finds them. -/
theorem flushed_eq (c : Dev nD) (t : Fin cfg2.N) :
    (dat2 V c).flushed 4 t = ((cfg2.win 4).blk t).view.read (Elt Ideal)
      (comb (V c main_arg0) (V c main_v16) (V c main_arg5) (V c main_v7)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x65) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  show k2_pay1 (F := Ideal) (iblk2 V c 0 t) (iblk2 V c 2 t) (iblk2 V c 3 t) (iblk2 V c 1 t) (ix2 p q)
    = comb (V c main_arg0) (V c main_v16) (V c main_arg5) (V c main_v7) (((cfg2.win 4).blk t).view.emb (ix2 p q))
  rw [oblk_emb]
  refine (selfCombine_apply (iblk2 V c 0 t) (iblk2 V c 2 t) (iblk2 V c 3 t) (iblk2 V c 1 t) p q).trans ?_
  exact congrArg₂ (· + ·)
    (congrArg₂ (· + ·)
      (Finset.sum_congr rfl fun k _ => congrArg₂ (· * ·) (xblk_apply V c t p k) (wblk_apply V c t k q))
      (bblk_apply V c t q))
    (congrArg₂ Ideal.div (adblk_apply V c t p (sumCol q))
      (congrArg (max · (Ideal.ofBits .f32 0x3F800000#32)) (adblk_apply V c t p cntCol)))

/-- An index of the array is in point t's block iff each coordinate is in the block's range on its axis. -/
theorem mem_blk (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v17).slice (win2_4.rect t)).set ↔ _
  rw [View.set_slice_whole, Rect.mem_set_unit]
  exact Iff.rfl

/-- Every node lies in the block of its quotient by 5000. -/
theorem covered (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e8, e9⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    rw [e8, ht]; omega
  | ⟨1, _⟩ =>
    show win2_4.index t (1 : Fin 2) * 64 ≤ (i 1).val ∧ (i 1).val < win2_4.index t (1 : Fin 2) * 64 + 64
    rw [e9]; omega

/-- THE ARRAY after the call: the combination of the arrays the call found. -/
theorem final (c : Dev nD) :
    (dat2 V c).arrAt 4 cfg2.N = comb (V c main_arg0) (V c main_v16) (V c main_arg5) (V c main_v7) :=
  (dat2 V c).arrAt_eq_of_cover 4 (comb (V c main_arg0) (V c main_v16) (V c main_arg5) (V c main_v7))
    (fun t _ => flushed_eq V c t) covered

end Cert.KernelIdeal.SelfCombine

end
-- ==== Proof.KernelValue.lean ====
/-
  The idealized kernel program's result array as one term of its seven arguments.

  The run leaves in the result array what the fold of @main leaves: the third call's whole-array value (self term plus
  mean) of x, the sums-and-count array, self_w and self_b as a row; the sums-and-count array is the host's scatter-add
  of the messages with a column of ones; a message is the taken row of the first call's whole-array value (the node
  projection of x, msg_w's first 64 rows and msg_b as a row) plus the second call's whole-array value (the edge
  projection of edge_attr and msg_w's last 32 rows). Each step below walks one segment of @main back: a call's arrays
  by its whole-array value, a host stretch by its read-back, a buffer a segment does not write by what it held before.
-/
import proofs.«408647_j9775345566348_3_alg».proof.Proof.Gen.KernelIdeal.Frame
import proofs.«408647_j9775345566348_3_alg».proof.Proof.HostReads
import proofs.«408647_j9775345566348_3_alg».proof.Proof.NodeProj
import proofs.«408647_j9775345566348_3_alg».proof.Proof.EdgeProj
import proofs.«408647_j9775345566348_3_alg».proof.Proof.SelfCombine

noncomputable section

open Idealize.ShloMosaic Idealize.ShloMosaic.TcCoe Idealize.SL.Sem

namespace Cert.KernelIdeal.Whole

open Cert.KernelIdeal Cert.KernelIdeal.Gen Cert.KernelIdeal.Host

variable (m : (ℓ : Loc nD τ sig) → Buf (Elt Ideal) ℓ) (ρ : Dev nD → PrngReg) (c : Dev nD)

/-! ## After the first host stretch -/

theorem W1_v1 : W1 m ρ c (Proc.devRef .tc main_v1) = srcVec (m ((c : Thread nD τ).loc main_arg1)) := before_v1 (W0 m ρ c)
theorem W1_v3 : W1 m ρ c (Proc.devRef .tc main_v3) = dstVec (m ((c : Thread nD τ).loc main_arg1)) := before_v3 (W0 m ρ c)
theorem W1_v4 : W1 m ρ c (Proc.devRef .tc main_v4) = nodeW (F := Ideal) (m ((c : Thread nD τ).loc main_arg3)) := before_v4 (W0 m ρ c)
theorem W1_v5 : W1 m ρ c (Proc.devRef .tc main_v5) = edgeW (F := Ideal) (m ((c : Thread nD τ).loc main_arg3)) := before_v5 (W0 m ρ c)
theorem W1_v6 : W1 m ρ c (Proc.devRef .tc main_v6) = asRow (F := Ideal) (m ((c : Thread nD τ).loc main_arg4)) := before_v6 (W0 m ρ c)
theorem W1_v7 : W1 m ρ c (Proc.devRef .tc main_v7) = asRow (F := Ideal) (m ((c : Thread nD τ).loc main_arg6)) := before_v7 (W0 m ρ c)
theorem W1_arg0 : W1 m ρ c (Proc.devRef .tc main_arg0) = m ((c : Thread nD τ).loc main_arg0) := before_arg0 (W0 m ρ c)
theorem W1_arg2 : W1 m ρ c (Proc.devRef .tc main_arg2) = m ((c : Thread nD τ).loc main_arg2) := before_arg2 (W0 m ρ c)

/-! ## After the node projection -/

theorem W2_v8 : W2 m ρ c (Proc.devRef .tc main_v8)
    = NodeProj.proj (m ((c : Thread nD τ).loc main_arg0)) (nodeW (F := Ideal) (m ((c : Thread nD τ).loc main_arg3)))
        (asRow (F := Ideal) (m ((c : Thread nD τ).loc main_arg4))) := by
  refine (W2_arr m ρ c 3).trans ((NodeProj.final (V1 m ρ) c).trans ?_)
  show NodeProj.proj (W1 m ρ c (Proc.devRef .tc main_arg0)) (W1 m ρ c (Proc.devRef .tc main_v4)) (W1 m ρ c (Proc.devRef .tc main_v6)) = _
  rw [W1_arg0, W1_v4, W1_v6]
theorem W2_v1 : W2 m ρ c (Proc.devRef .tc main_v1) = srcVec (m ((c : Thread nD τ).loc main_arg1)) :=
  (W2_of_ne m ρ c main_v1 (by decide)).trans (W1_v1 m ρ c)
theorem W2_v3 : W2 m ρ c (Proc.devRef .tc main_v3) = dstVec (m ((c : Thread nD τ).loc main_arg1)) :=
  (W2_of_ne m ρ c main_v3 (by decide)).trans (W1_v3 m ρ c)
theorem W2_v5 : W2 m ρ c (Proc.devRef .tc main_v5) = edgeW (F := Ideal) (m ((c : Thread nD τ).loc main_arg3)) :=
  (W2_of_ne m ρ c main_v5 (by decide)).trans (W1_v5 m ρ c)
theorem W2_v7 : W2 m ρ c (Proc.devRef .tc main_v7) = asRow (F := Ideal) (m ((c : Thread nD τ).loc main_arg6)) :=
  (W2_of_ne m ρ c main_v7 (by decide)).trans (W1_v7 m ρ c)
theorem W2_arg2 : W2 m ρ c (Proc.devRef .tc main_arg2) = m ((c : Thread nD τ).loc main_arg2) :=
  (W2_of_ne m ρ c main_arg2 (by decide)).trans (W1_arg2 m ρ c)

/-! ## After the edge projection -/

theorem W3_v9 : W3 m ρ c (Proc.devRef .tc main_v9)
    = EdgeProj.proj (m ((c : Thread nD τ).loc main_arg2)) (edgeW (F := Ideal) (m ((c : Thread nD τ).loc main_arg3))) := by
  refine (W3_arr m ρ c 2).trans ((EdgeProj.final (V2 m ρ) c).trans ?_)
  show EdgeProj.proj (W2 m ρ c (Proc.devRef .tc main_arg2)) (W2 m ρ c (Proc.devRef .tc main_v5)) = _
  rw [W2_arg2, W2_v5]
theorem W3_v8 : W3 m ρ c (Proc.devRef .tc main_v8)
    = NodeProj.proj (m ((c : Thread nD τ).loc main_arg0)) (nodeW (F := Ideal) (m ((c : Thread nD τ).loc main_arg3)))
        (asRow (F := Ideal) (m ((c : Thread nD τ).loc main_arg4))) :=
  (W3_of_ne m ρ c main_v8 (by decide)).trans (W2_v8 m ρ c)
theorem W3_v1 : W3 m ρ c (Proc.devRef .tc main_v1) = srcVec (m ((c : Thread nD τ).loc main_arg1)) :=
  (W3_of_ne m ρ c main_v1 (by decide)).trans (W2_v1 m ρ c)
theorem W3_v3 : W3 m ρ c (Proc.devRef .tc main_v3) = dstVec (m ((c : Thread nD τ).loc main_arg1)) :=
  (W3_of_ne m ρ c main_v3 (by decide)).trans (W2_v3 m ρ c)
theorem W3_v7 : W3 m ρ c (Proc.devRef .tc main_v7) = asRow (F := Ideal) (m ((c : Thread nD τ).loc main_arg6)) :=
  (W3_of_ne m ρ c main_v7 (by decide)).trans (W2_v7 m ρ c)

/-! ## After the take and the scatter-add -/

/-- The sums-and-count array as a function of the arguments. -/
def sumsOf (x : FVec Ideal S50000x64 .f32) (ei : IVec S2x800000 32) (ea : FVec Ideal S800000x32 .f32)
    (mw : FVec Ideal S96x64 .f32) (mb : FVec Ideal S64 .f32) : FVec Ideal S50000x65 .f32 :=
  sumsAndCount (takeVal (NodeProj.proj x (nodeW (F := Ideal) mw) (asRow (F := Ideal) mb)) (srcVec ei)) (EdgeProj.proj ea (edgeW (F := Ideal) mw)) (dstVec ei)

/-- The idealized kernel program's result as a function of the arguments. -/
def resultOf (x : FVec Ideal S50000x64 .f32) (ei : IVec S2x800000 32) (ea : FVec Ideal S800000x32 .f32)
    (mw : FVec Ideal S96x64 .f32) (mb : FVec Ideal S64 .f32) (sw : FVec Ideal S64x64 .f32) (sb : FVec Ideal S64 .f32) :
    FVec Ideal S50000x64 .f32 :=
  SelfCombine.comb x (sumsOf x ei ea mw mb) sw (asRow (F := Ideal) sb)

/-- The sums-and-count array, as the third call finds it. -/
def sums : FVec Ideal S50000x65 .f32 :=
  sumsOf (m ((c : Thread nD τ).loc main_arg0)) (m ((c : Thread nD τ).loc main_arg1)) (m ((c : Thread nD τ).loc main_arg2))
    (m ((c : Thread nD τ).loc main_arg3)) (m ((c : Thread nD τ).loc main_arg4))

theorem W5_v16 : W5 m ρ c (Proc.devRef .tc main_v16) = sums m c := by
  refine (sums_v16 (W4 m ρ c)).trans ?_
  unfold sums sumsOf
  rw [show W4 m ρ c (Proc.devRef .tc main_v10) = _ from take_v10 (W3 m ρ c),
    show W4 m ρ c (Proc.devRef .tc main_v9) = _ from take_v9 (W3 m ρ c),
    show W4 m ρ c (Proc.devRef .tc main_v3) = _ from take_v3 (W3 m ρ c), W3_v8, W3_v1, W3_v9, W3_v3]
theorem W5_v7 : W5 m ρ c (Proc.devRef .tc main_v7) = asRow (F := Ideal) (m ((c : Thread nD τ).loc main_arg6)) :=
  (sums_v7 (W4 m ρ c)).trans ((take_v7 (W3 m ρ c)).trans (W3_v7 m ρ c))
/-- x, as the third call finds it: what the generated fold says of the argument, one step short. -/
theorem W5_arg0 : W5 m ρ c (Proc.devRef .tc main_arg0) = m ((c : Thread nD τ).loc main_arg0) :=
  ((W6_arr m ρ c 0).trans (((dat2 (V5 m ρ) c).arrAt_in 0 rfl _).trans (A_eq2 (V5 m ρ) c 0))).symm.trans (W6_main_arg0 m ρ c)
/-- self_w, likewise. -/
theorem W5_arg5 : W5 m ρ c (Proc.devRef .tc main_arg5) = m ((c : Thread nD τ).loc main_arg5) :=
  ((W6_arr m ρ c 2).trans (((dat2 (V5 m ρ) c).arrAt_in 2 rfl _).trans (A_eq2 (V5 m ρ) c 2))).symm.trans (W6_main_arg5 m ρ c)

/-! ## The result array -/

/-- The idealized kernel program's result, at the run's arguments. -/
def result : FVec Ideal S50000x64 .f32 :=
  resultOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem W6_v17 : W6 m ρ c (Proc.devRef .tc main_v17) = result m c := by
  refine (W6_arr m ρ c 4).trans ((SelfCombine.final (V5 m ρ) c).trans ?_)
  show SelfCombine.comb (W5 m ρ c (Proc.devRef .tc main_arg0)) (W5 m ρ c (Proc.devRef .tc main_v16))
    (W5 m ρ c (Proc.devRef .tc main_arg5)) (W5 m ρ c (Proc.devRef .tc main_v7)) = _
  rw [W5_arg0, W5_v16, W5_arg5, W5_v7]
  rfl

end Cert.KernelIdeal.Whole

end
-- ==== Proof.LibRowScatter.lean ====
/-
  Rows taken out of a table, and rows accumulated into a table, read at one element.

  GATHER. A `stablehlo.gather` that collapses axis 0 of an [N, C] operand at an [E, 1] column of start indices
  (what `table[idx]` of a matrix lowers to) holds at (e, o) the operand's element (r, o), where r is the start
  index of row e read as a signed integer and clamped into [0, N - 1]: the column o is untouched, and the row read
  does not depend on the column.

  SCATTER-ADD. A `stablehlo.scatter` with an `add` body that inserts axis 0 of an [N, C] operand (or of an [N]
  operand) at an [E, 1] column of scatter indices holds, over the extended reals, at (n, o) the operand's element
  plus the sum, over the update rows e whose scatter index read as a signed integer IS n, of the update's element
  (e, o). A row whose index lies outside [0, N) lands nowhere and contributes to no element: nothing is assumed
  of the indices.
-/
import Idealize.ShloMosaic.Lib.ValueIdx
import Idealize.ShloMosaic.Lib.ValueIdxRank1
import Idealize.ShloMosaic.PureOps

noncomputable section

open scoped BigOperators

namespace Idealize.ShloMosaic.RowScatter

open Idealize.ShloMosaic Idealize.ShloMosaic.ValueIdx

/-! ## The gather of rows -/

/-- The dimension numbers of a gather of rows: axis 0 of the [N, C] operand collapsed and start-indexed, the
    result's axis 1 the offset axis, the index vector on axis 1 of the [E, 1] start indices, slices of one row. -/
abbrev rowGather (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into the table. -/
def clampRow {w : Nat} (N : Nat) (hN : 0 < N) (v : BitVec w) : Fin N := ⟨min v.toInt.toNat (N - 1), by omega⟩

/-- THE GATHER OF ROWS AT (e, o): the operand at (the clamped start index of row e, o). -/
theorem rowGather_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGather N C E wf) x idx (ix2 e o) = x (ix2 (clampRow N hN (idx (ix2 e (0 : Fin 1)))) o) := by
  unfold Host.gather
  congr 1
  funext a
  refine Fin.ext ?_
  match a with
  | ⟨0, _⟩ =>
    show (rowGather N C E wf).start (ix2 e o) idx 0 + (rowGather N C E wf).batchCoord (ix2 e o) 0
        + (rowGather N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e o) ⟨List.idxOf (0 : Fin 2) (rowGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C E wf).start (ix2 e o) idx 1 + (rowGather N C E wf).batchCoord (ix2 e o) 1
        + (rowGather N C E wf).offCoord (ix2 e o) 1 = o.val
    rw [GatherDims.batchCoord_eq_zero _ _ _ List.not_mem_nil]
    have hst : (rowGather N C E wf).start (ix2 e o) idx 1 = 0 := by
      unfold GatherDims.start
      rw [dif_neg (show (1 : Fin 2) ∉ ([0] : List (Fin 2)) from by decide)]
    rw [hst]
    simp only [Nat.add_zero, Nat.zero_add]
    rfl

/-! ## The scatter of rows, accumulating -/

/-- The dimension numbers of a scatter of rows into a matrix: axis 0 of the [N, C] operand inserted and
    scatter-indexed, the updates' axis 1 the window axis, the index vector on axis 1 of the [E, 1] indices. -/
abbrev rowScatter2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The same into a vector: no window axis at all. -/
abbrev rowScatter1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Two
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

theorem rowScatter2_start0 : (rowScatter2 N C E wf).start (ix2 e c) idx 0 = (idx (ix2 e (0 : Fin 1))).toInt := by
  unfold ScatterDims.start
  rw [dif_pos (show (0 : Fin 2) ∈ (rowScatter2 N C E wf).scatterDimsToOperandDims from List.mem_singleton.mpr rfl)]
  have hsi : (rowScatter2 N C E wf).siIdx (ix2 e c) ⟨List.idxOf (0 : Fin 2) (rowScatter2 N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter2_start1 : (rowScatter2 N C E wf).start (ix2 e c) idx 1 = 0 := by
  unfold ScatterDims.start
  rw [dif_neg (show (1 : Fin 2) ∉ ([0] : List (Fin 2)) from by decide)]

theorem rowScatter2_window0 : (rowScatter2 N C E wf).window (ix2 e c) 0 = 0 := by
  unfold ScatterDims.window
  rw [dif_neg (show (0 : Fin 2) ∉ (rowScatter2 N C E wf).sKept from by simp [ScatterDims.sKept, Shape.kept])]

theorem rowScatter2_window1 : (rowScatter2 N C E wf).window (ix2 e c) 1 = c.val := by
  unfold ScatterDims.window
  rw [dif_pos (show (1 : Fin 2) ∈ (rowScatter2 N C E wf).sKept from by simp [ScatterDims.sKept, Shape.kept])]
  rfl

/-- Update (e, c) lands on (n, o) exactly when row e's index, read signed, is n and c is o. -/
theorem rowScatter2_lands_iff (n : Fin N) (o : Fin C) :
    (rowScatter2 N C E wf).resultIdx? (ix2 e c) idx = some (ix2 n o)
      ↔ (idx (ix2 e (0 : Fin 1))).toInt = (n.val : Int) ∧ c = o := by
  have h0 := rowScatter2_start0 wf idx e c
  have h1 := rowScatter2_start1 wf idx e c
  have w0 := rowScatter2_window0 wf e c
  have w1 := rowScatter2_window1 wf e c
  unfold ScatterDims.resultIdx?
  split
  · rename_i h
    rw [Option.some.injEq]
    constructor
    · intro hf
      have e0 := congrArg Fin.val (congrFun hf 0)
      have e1 := congrArg Fin.val (congrFun hf 1)
      have b0 := (h 0).1
      simp only [h0, w0, h1, w1] at e0 e1 b0
      refine ⟨?_, Fin.ext ?_⟩
      · have : ((ix2 n o : (⟨2, ![N, C]⟩ : Shape).Idx) 0).val = n.val := rfl
        rw [this] at e0
        omega
      · have : ((ix2 n o : (⟨2, ![N, C]⟩ : Shape).Idx) 1).val = o.val := rfl
        rw [this] at e1
        omega
    · rintro ⟨hz, rfl⟩
      funext a; refine Fin.ext ?_
      match a with
      | ⟨0, _⟩ =>
        show ((rowScatter2 N C E wf).start (ix2 e c) idx 0 + ((rowScatter2 N C E wf).window (ix2 e c) 0 : Nat)).toNat = n.val
        rw [h0, w0, hz]; simp
      | ⟨1, _⟩ =>
        show ((rowScatter2 N C E wf).start (ix2 e c) idx 1 + ((rowScatter2 N C E wf).window (ix2 e c) 1 : Nat)).toNat = c.val
        rw [h1, w1]; simp
  · rename_i h
    constructor
    · intro hf; exact absurd hf (by simp)
    · rintro ⟨hz, rfl⟩
      exfalso; apply h
      intro a
      match a with
      | ⟨0, _⟩ =>
        show 0 ≤ (rowScatter2 N C E wf).start (ix2 e c) idx 0 + ((rowScatter2 N C E wf).window (ix2 e c) 0 : Nat)
          ∧ (rowScatter2 N C E wf).start (ix2 e c) idx 0 + ((rowScatter2 N C E wf).window (ix2 e c) 0 : Nat) < (N : Int)
        rw [h0, w0, hz]; have := n.isLt; constructor <;> omega
      | ⟨1, _⟩ =>
        show 0 ≤ (rowScatter2 N C E wf).start (ix2 e c) idx 1 + ((rowScatter2 N C E wf).window (ix2 e c) 1 : Nat)
          ∧ (rowScatter2 N C E wf).start (ix2 e c) idx 1 + ((rowScatter2 N C E wf).window (ix2 e c) 1 : Nat) < (C : Int)
        rw [h1, w1]; have := c.isLt; constructor <;> omega

end Two

/-- THE SCATTER-ADD OF ROWS INTO A MATRIX, at (n, o), over the extended reals: the operand's element plus the
    updates' column o summed over the rows whose index is n. -/
theorem rowScatter2_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (o : Fin C) :
    Ideal.hostScatterAdd (rowScatter2 N C E wf) x idx upd (ix2 n o)
      = x (ix2 n o) + ∑ e ∈ Finset.univ.filter (fun e : Fin E => (idx (ix2 e (0 : Fin 1))).toInt = (n.val : Int)), upd (ix2 e o) := by
  unfold Ideal.hostScatterAdd
  congr 1
  rw [Finset.sum_filter, sum_idx2, Finset.sum_filter]
  refine Finset.sum_congr rfl fun e _ => ?_
  rw [Finset.sum_congr rfl fun c _ => if_congr (rowScatter2_lands_iff wf idx e c n o) rfl rfl]
  by_cases hz : (idx (ix2 e (0 : Fin 1))).toInt = (n.val : Int)
  · simp only [hz, true_and, if_true]
    rw [Finset.sum_ite_eq']; simp
  · simp only [hz, false_and, if_false, Finset.sum_const_zero]

section One
variable {N E w : Nat} (wf : ScatterDims.WF ⟨1, ![N]⟩ ⟨2, ![E, 1]⟩ ⟨1, ![E]⟩ [] [0] [0] 1)
  (idx : IVec ⟨2, ![E, 1]⟩ w) (e : Fin E)

theorem rowScatter1_start0 : (rowScatter1 N E wf).start (ix1 e) idx 0 = (idx (ix2 e (0 : Fin 1))).toInt := by
  unfold ScatterDims.start
  rw [dif_pos (show (0 : Fin 1) ∈ (rowScatter1 N E wf).scatterDimsToOperandDims from List.mem_singleton.mpr rfl)]
  have hsi : (rowScatter1 N E wf).siIdx (ix1 e) ⟨List.idxOf (0 : Fin 1) (rowScatter1 N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter1_window0 : (rowScatter1 N E wf).window (ix1 e) 0 = 0 := by
  unfold ScatterDims.window
  rw [dif_neg (show (0 : Fin 1) ∉ (rowScatter1 N E wf).sKept from by simp [ScatterDims.sKept, Shape.kept])]

/-- Update e lands on n exactly when row e's index, read signed, is n. -/
theorem rowScatter1_lands_iff (n : Fin N) :
    (rowScatter1 N E wf).resultIdx? (ix1 e) idx = some (ix1 n) ↔ (idx (ix2 e (0 : Fin 1))).toInt = (n.val : Int) := by
  have h0 := rowScatter1_start0 wf idx e
  have w0 := rowScatter1_window0 wf e
  unfold ScatterDims.resultIdx?
  split
  · rename_i h
    rw [Option.some.injEq]
    constructor
    · intro hf
      have e0 := congrArg Fin.val (congrFun hf 0)
      have b0 := (h 0).1
      simp only [h0, w0] at e0 b0
      have : ((ix1 n : (⟨1, ![N]⟩ : Shape).Idx) 0).val = n.val := rfl
      rw [this] at e0
      omega
    · intro hz
      funext a; refine Fin.ext ?_
      match a with
      | ⟨0, _⟩ =>
        show ((rowScatter1 N E wf).start (ix1 e) idx 0 + ((rowScatter1 N E wf).window (ix1 e) 0 : Nat)).toNat = n.val
        rw [h0, w0, hz]; simp
  · rename_i h
    constructor
    · intro hf; exact absurd hf (by simp)
    · intro hz
      exfalso; apply h
      intro a
      match a with
      | ⟨0, _⟩ =>
        show 0 ≤ (rowScatter1 N E wf).start (ix1 e) idx 0 + ((rowScatter1 N E wf).window (ix1 e) 0 : Nat)
          ∧ (rowScatter1 N E wf).start (ix1 e) idx 0 + ((rowScatter1 N E wf).window (ix1 e) 0 : Nat) < (N : Int)
        rw [h0, w0, hz]; have := n.isLt; constructor <;> omega

end One

/-- THE SCATTER-ADD OF ROWS INTO A VECTOR, at n, over the extended reals: the operand's element plus the updates
    summed over the rows whose index is n. -/
theorem rowScatter1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (rowScatter1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, ← Equiv.sum_comp (idxEquiv1 (n := E)).symm, Finset.sum_filter]
  refine Finset.sum_congr rfl fun e _ => ?_
  exact if_congr (rowScatter1_lands_iff wf idx e n) rfl rfl

end Idealize.ShloMosaic.RowScatter

end
-- ==== Proof.Spec.lean ====
/-
  The layer's result, element by element, as one formula over the extended reals.

  out[n, o] = (sum over k of x[n, k] * self_w[k, o] + self_b[o])
              + (sum over the edges e whose destination is n of msg[e, o]) / max(number of such edges, 1),
  msg[e, o] = (sum over k < 64 of x[s(e), k] * msg_w[k, o] + msg_b[o]) + sum over k < 32 of ea[e, k] * msg_w[64 + k, o],
  where s(e) is edge e's source row: the source word wrapped as jnp wraps a negative index, read signed and clamped
  into the table's rows as a gather clamps its start index. An edge whose destination word, read signed, is no node
  lands nowhere. The zero the sums start from and the one the count is raised to are kept as the words the programs
  print; nothing here evaluates them.
-/
import Idealize.ShloMosaic.Lib.ValueIdx
import proofs.«408647_j9775345566348_3_alg».proof.Proof.LibRowScatter

noncomputable section

open scoped BigOperators

namespace Cert.Spec

open Idealize.ShloMosaic Idealize.ShloMosaic.ValueIdx Idealize.ShloMosaic.RowScatter

abbrev Nodes : Shape := ⟨2, ![50000, 64]⟩
abbrev Edges : Shape := ⟨2, ![2, 800000]⟩
abbrev Attrs : Shape := ⟨2, ![800000, 32]⟩
abbrev MsgW : Shape := ⟨2, ![96, 64]⟩
abbrev SelfW : Shape := ⟨2, ![64, 64]⟩
abbrev Bias : Shape := ⟨1, ![64]⟩

/-- Row k of msg_w's first 64: the rows the node features meet. -/
def loRow (k : Fin 64) : Fin 96 := ⟨k.val, by omega⟩
/-- Row 64 + k of msg_w: the rows the edge attributes meet. -/
def hiRow (k : Fin 32) : Fin 96 := ⟨64 + k.val, by omega⟩

/-- Edge e's source word after jnp's wrap of a negative index. -/
def srcWord (ei : Edges.Idx → BitVec 32) (e : Fin 800000) : BitVec 32 :=
  Scalar.select (IntOp.cmpi .slt (ei (ix2 (0 : Fin 2) e)) 0#32) (IntOp.addi (ei (ix2 (0 : Fin 2) e)) 50000#32) (ei (ix2 (0 : Fin 2) e))
/-- The row of x edge e reads: the wrapped word, signed, clamped into the table. -/
def srcRow (ei : Edges.Idx → BitVec 32) (e : Fin 800000) : Fin 50000 := clampRow 50000 (by decide) (srcWord ei e)
/-- Edge e's destination word, read signed. -/
def dstInt (ei : Edges.Idx → BitVec 32) (e : Fin 800000) : Int := (ei (ix2 (1 : Fin 2) e)).toInt

/-- The 96 rows of msg_w, split into the 64 the node features meet and the 32 the edge attributes meet. -/
theorem sum_rows (f : Fin 96 → EReal) : ∑ k : Fin 96, f k = ∑ k : Fin 64, f (loRow k) + ∑ k : Fin 32, f (hiRow k) :=
  Fin.sum_univ_add (a := 64) (b := 32) f

def zero : EReal := Ideal.ofBits .f32 0x00000000#32
def one : EReal := Ideal.ofBits .f32 0x3F800000#32

/-- Edge e's message, column o. -/
def msg (x : Nodes.Idx → EReal) (ei : Edges.Idx → BitVec 32) (ea : Attrs.Idx → EReal) (mw : MsgW.Idx → EReal)
    (mb : Bias.Idx → EReal) (e : Fin 800000) (o : Fin 64) : EReal :=
  ((∑ k : Fin 64, x (ix2 (srcRow ei e) k) * mw (ix2 (loRow k) o)) + mb (ix1 o))
    + ∑ k : Fin 32, ea (ix2 e k) * mw (ix2 (hiRow k) o)

/-- Node n's result, column o. -/
def out (x : Nodes.Idx → EReal) (ei : Edges.Idx → BitVec 32) (ea : Attrs.Idx → EReal) (mw : MsgW.Idx → EReal)
    (mb : Bias.Idx → EReal) (sw : SelfW.Idx → EReal) (sb : Bias.Idx → EReal) (n : Fin 50000) (o : Fin 64) : EReal :=
  ((∑ k : Fin 64, x (ix2 n k) * sw (ix2 k o)) + sb (ix1 o))
    + Ideal.div (zero + ∑ e ∈ Finset.univ.filter (fun e : Fin 800000 => dstInt ei e = (n.val : Int)), msg x ei ea mw mb e o)
        (max (zero + ∑ e ∈ Finset.univ.filter (fun e : Fin 800000 => dstInt ei e = (n.val : Int)), one) one)

end Cert.Spec

end
-- ==== Proof.LibEdgeWords.lean ====
/-
  The index words of an edge list, read at one edge.

  A row of a [2, E] array of indices cut out by a unit-stride slice and laid flat by a reshape holds, at e, the array's
  element (row, e). A vector laid out as an [E, 1] column holds at (e, 0) the vector's element e. jnp's wrap of negative
  indices, select (src < 0) (src + n) src on whole vectors, is at each edge that select on the edge's word.
-/
import Idealize.ShloMosaic.Lib.Pipeline.Value
import Idealize.ShloMosaic.Lib.ValueLayout
import Idealize.ShloMosaic.Lib.ValueIdx

noncomputable section

namespace Idealize.ShloMosaic.EdgeWords

open Idealize.ShloMosaic Idealize.ShloMosaic.ValueIdx

variable {E : Nat}

/-- Row 0 of a [2, E] array, sliced out and laid flat, at e. -/
theorem row0_apply {α : Type} (ei : (⟨2, ![2, E]⟩ : Shape).Idx → α) (hs : (⟨2, ![2, E]⟩ : Shape).Slices ![0, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![0, 0] ei hs) hc (ix1 e) = ei (ix2 (0 : Fin 2) e) := by
  rw [shapeCast_1a_a_apply]
  exact extractStridedSlice_apply _ ei hs (ix2 (0 : Fin 1) e) (ix2 (0 : Fin 2) e)
    (fun a => by match a with | ⟨0, _⟩ => rfl | ⟨1, _⟩ => exact (Nat.zero_add _).symm)

/-- Row 1 of a [2, E] array, sliced out and laid flat, at e. -/
theorem row1_apply {α : Type} (ei : (⟨2, ![2, E]⟩ : Shape).Idx → α) (hs : (⟨2, ![2, E]⟩ : Shape).Slices ![1, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![1, 0] ei hs) hc (ix1 e) = ei (ix2 (1 : Fin 2) e) := by
  rw [shapeCast_1a_a_apply]
  exact extractStridedSlice_apply _ ei hs (ix2 (0 : Fin 1) e) (ix2 (1 : Fin 2) e)
    (fun a => by match a with | ⟨0, _⟩ => rfl | ⟨1, _⟩ => exact (Nat.zero_add _).symm)

/-- A vector as an [E, 1] column, at (e, 0). -/
theorem column_apply {α : Type} (v : (⟨1, ![E]⟩ : Shape).Idx → α)
    (hb : (⟨1, ![E]⟩ : Shape).BroadcastsInDim ⟨2, ![E, 1]⟩ (![0] : Fin 1 → Fin 2)) (e : Fin E) :
    broadcastInDim ⟨2, ![E, 1]⟩ ![0] hb v (ix2 e (0 : Fin 1)) = v (ix1 e) :=
  broadcastInDim_apply _ hb v (ix2 e (0 : Fin 1)) (ix1 e) (fun a => by
    match a with
    | ⟨0, _⟩ =>
      show e.val = if E = 1 then 0 else e.val
      split
      · have := e.isLt; omega
      · rfl)

/-- jnp's wrap of negative indices as a column, at (e, 0): the select on edge e's word. -/
theorem wrapColumn_apply (src : IVec ⟨1, ![E]⟩ 32) (n : BitVec 32)
    (hb : (⟨1, ![E]⟩ : Shape).BroadcastsInDim ⟨2, ![E, 1]⟩ (![0] : Fin 1 → Fin 2))
    (h0 : (⟨0, ![]⟩ : Shape).BroadcastsInDim ⟨1, ![E]⟩ (![] : Fin 0 → Fin 1)) (e : Fin E) :
    broadcastInDim ⟨2, ![E, 1]⟩ ![0] hb
        (select (cmpi .slt src (broadcastInDim ⟨1, ![E]⟩ ![] h0 (constantI ⟨0, ![]⟩ 32 0#32)))
          (addi src (broadcastInDim ⟨1, ![E]⟩ ![] h0 (constantI ⟨0, ![]⟩ 32 n))) src) (ix2 e (0 : Fin 1))
      = Scalar.select (IntOp.cmpi .slt (src (ix1 e)) 0#32) (IntOp.addi (src (ix1 e)) n) (src (ix1 e)) := by
  rw [column_apply]
  rfl

end Idealize.ShloMosaic.EdgeWords

end
-- ==== Proof.LibInTable.lean ====
/-
  A source index inside its table, as the host's tests see it.

  For a 32-bit word a that, read signed, lies in [0, hi]: the wrap jnp applies to a negative index
  (select (a < 0) (a + n) a, n the table's length) leaves a as it is, and the range test of a filling take
  ((a >= 0) and (a <= hi), hi the last row) is the bit 1. And a reduction by `and` from the bit 1 over an array of 1 bits is the
  bit 1, the converse of reading a `jnp.all` back.
-/
import Idealize.ShloMosaic.Lib.ReduceAll
import Idealize.ShloMosaic.Lib.ValueIdx

namespace Idealize.ShloMosaic.InTable

open Idealize.ShloMosaic Idealize.ShloMosaic.ValueIdx

/-- jnp's wrap of a negative index does nothing to an index that is not negative. -/
theorem wrap_eq {a n : BitVec 32} (h0 : 0 ≤ a.toInt) :
    Scalar.select (IntOp.cmpi .slt a 0#32) (IntOp.addi a n) a = a := by
  have hb : IntOp.cmpi .slt a 0#32 = 0#1 :=
    eq_zero_of_ne_one fun h => by
      have := IntOp.cmpi_slt.1 h
      have hz : (0#32 : BitVec 32).toInt = 0 := by decide
      omega
  rw [hb, select_zero]

/-- The range test of a filling take passes on an index inside the table. -/
theorem test_eq_one {a hi : BitVec 32} (h0 : 0 ≤ a.toInt) (h1 : a.toInt ≤ hi.toInt) :
    IntOp.andi (IntOp.cmpi .sge a 0#32) (IntOp.cmpi .sle a hi) = 1#1 := by
  have hz : (0#32 : BitVec 32).toInt = 0 := by decide
  exact IntOp.andi_eq_one.2 ⟨IntOp.cmpi_sge.2 (by omega), IntOp.cmpi_sle.2 h1⟩

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A `stablehlo.reduce` by `and` from the bit 1 of an array of 1 bits is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

end Idealize.ShloMosaic.InTable
-- ==== Proof.KernelSpec.lean ====
/-
  The idealized kernel program computes the layer's formula, where the sources index x's rows.

  Element (n, o) of the kernel program's result is Spec.out at (n, o) whenever every source index, read signed, lies in
  [0, 50000). That hypothesis is used once: jnp.take's range test on the wrapped index is then the bit 1 at every edge,
  so the select keeps the gathered row of the projected table and never the NaN fill. The gathered row is row s(e) of
  the node projection, which is the projection of row s(e) of x; adding the edge projection gives the message in the
  kernel's grouping, (A + b) + B. The 65-column scatter-add holds in column o (o < 64) the sum of the messages over the
  edges landing on n, and in column 64 the sum of ones over them.
-/
import proofs.«408647_j9775345566348_3_alg».proof.Proof.KernelValue
import proofs.«408647_j9775345566348_3_alg».proof.Proof.Spec
import proofs.«408647_j9775345566348_3_alg».proof.Proof.LibRowScatter
import proofs.«408647_j9775345566348_3_alg».proof.Proof.LibEdgeWords
import proofs.«408647_j9775345566348_3_alg».proof.Proof.LibInTable
import Idealize.ShloMosaic.Lib.Pipeline.Value
import Idealize.ShloMosaic.Lib.ValueLayout

noncomputable section

open scoped BigOperators

namespace Cert.KernelIdeal.KerValue

open Cert.KernelIdeal Cert.KernelIdeal.Gen Cert.KernelIdeal.Host Cert.KernelIdeal.Whole Cert.KernelIdeal.Body
open Idealize.ShloMosaic Idealize.ShloMosaic.ValueIdx Idealize.ShloMosaic.RowScatter Idealize.ShloMosaic.EdgeWords

variable (x0 : FVec Ideal S50000x64 .f32) (x1 : IVec S2x800000 32) (x2 : FVec Ideal S800000x32 .f32)
  (x3 : FVec Ideal S96x64 .f32) (x4 : FVec Ideal S64 .f32) (x5 : FVec Ideal S64x64 .f32) (x6 : FVec Ideal S64 .f32)

/-! ## The index words -/

theorem srcVec_apply (e : Fin 800000) : srcVec x1 (ix1 e) = x1 (ix2 (0 : Fin 2) e) := by
  unfold srcVec; exact row0_apply x1 _ _ e
theorem dstVec_apply (e : Fin 800000) : dstVec x1 (ix1 e) = x1 (ix2 (1 : Fin 2) e) := by
  unfold dstVec; exact row1_apply x1 _ _ e

theorem wrapIdx_apply (e : Fin 800000) : wrapIdx (srcVec x1) (ix2 e (0 : Fin 1)) = Cert.Spec.srcWord x1 e := by
  unfold wrapIdx
  rw [wrapColumn_apply, srcVec_apply]
  rfl

theorem dstColumn_apply (e : Fin 800000) :
    (broadcastInDim S800000x1 ![0] Facts₀.bcast_S800000_S800000x1_0 (dstVec x1) (ix2 e (0 : Fin 1))).toInt = Cert.Spec.dstInt x1 e := by
  rw [column_apply, dstVec_apply]
  rfl

/-! ## The take keeps the gathered row -/

section InTable
variable (hsrc : ∀ e : Fin 800000, 0 ≤ (x1 (ix2 (0 : Fin 2) e)).toInt ∧ (x1 (ix2 (0 : Fin 2) e)).toInt < 50000)
include hsrc

/-- A source inside the table is its own wrap. -/
theorem srcWord_of_in (e : Fin 800000) : Cert.Spec.srcWord x1 e = x1 (ix2 (0 : Fin 2) e) := by
  unfold Cert.Spec.srcWord
  exact InTable.wrap_eq (hsrc e).1

/-- The range test passes at every edge. -/
theorem inRange_eq_one (e : Fin 800000) : inRange (srcVec x1) (ix1 e) = 1#1 := by
  unfold inRange
  refine InTable.reduce_andi_of_all _ _ _ _ _ rfl fun i => ?_
  obtain ⟨e', u, rfl⟩ : ∃ (e' : Fin 800000) (u : Fin 1), i = ix2 e' u := ⟨i 0, i 1, eq_ix2 i⟩
  obtain rfl : u = 0 := Subsingleton.elim _ _
  show IntOp.andi (IntOp.cmpi .sge (wrapIdx (srcVec x1) (ix2 e' (0 : Fin 1))) 0#32)
    (IntOp.cmpi .sle (wrapIdx (srcVec x1) (ix2 e' (0 : Fin 1))) 49999#32) = 1#1
  rw [wrapIdx_apply, srcWord_of_in x1 hsrc]
  have hm : (49999#32 : BitVec 32).toInt = 49999 := by decide
  exact InTable.test_eq_one (hsrc e').1 (by have := (hsrc e').2; omega)

/-- The take of a table at the sources, at (e, o): the table's row s(e). -/
theorem taken_apply (tbl : FVec Ideal S50000x64 .f32) (e : Fin 800000) (o : Fin 64) :
    takeVal tbl (srcVec x1) (ix2 e o) = tbl (ix2 (Cert.Spec.srcRow x1 e) o) := by
  unfold takeVal
  rw [select_apply]
  have hmask : broadcastInDim S800000x64 ![0] Facts₀.bcast_S800000_S800000x64_0 (inRange (srcVec x1)) (ix2 e o)
      = inRange (srcVec x1) (ix1 e) :=
    broadcastInDim_apply _ _ _ (ix2 e o) (ix1 e) (fun a => by
      match a with
      | ⟨0, _⟩ => show e.val = if (800000 : Nat) = 1 then 0 else e.val; rw [if_neg (by decide)])
  rw [hmask, inRange_eq_one x1 hsrc, select_one]
  show Host.gather (rowGather 50000 64 800000 Facts₀.gather_S50000x64_S800000x1_S800000x64_1_0_n_n_0_1_164_wf) tbl
    (wrapIdx (srcVec x1)) (ix2 e o) = _
  rw [rowGather_apply (by decide), wrapIdx_apply]
  rfl

end InTable

/-! ## The two projections, at an element, over msg_w's rows -/

theorem nodeW_apply (k o : Fin 64) : nodeW (F := Ideal) x3 (ix2 k o) = x3 (ix2 (Cert.Spec.loRow k) o) := by
  unfold nodeW
  exact extractStridedSlice_apply _ x3 _ (ix2 k o) (ix2 (Cert.Spec.loRow k) o)
    (fun a => by match a with | ⟨0, _⟩ => exact (Nat.zero_add _).symm | ⟨1, _⟩ => exact (Nat.zero_add _).symm)
theorem edgeW_apply (k : Fin 32) (o : Fin 64) : edgeW (F := Ideal) x3 (ix2 k o) = x3 (ix2 (Cert.Spec.hiRow k) o) := by
  unfold edgeW
  exact extractStridedSlice_apply _ x3 _ (ix2 k o) (ix2 (Cert.Spec.hiRow k) o)
    (fun a => by match a with | ⟨0, _⟩ => rfl | ⟨1, _⟩ => exact (Nat.zero_add _).symm)
theorem asRow_apply (b : FVec Ideal S64 .f32) (o : Fin 64) : asRow (F := Ideal) b (ix2 (0 : Fin 1) o) = b (ix1 o) := by
  unfold asRow
  exact shapeCast_a_1a_apply b _ (0 : Fin 1) o

theorem nodeProj_at (r : Fin 50000) (o : Fin 64) :
    NodeProj.proj x0 (nodeW (F := Ideal) x3) (asRow (F := Ideal) x4) (ix2 r o)
      = (∑ k : Fin 64, x0 (ix2 r k) * x3 (ix2 (Cert.Spec.loRow k) o)) + x4 (ix1 o) := by
  show (∑ k : Fin 64, x0 (ix2 r k) * nodeW (F := Ideal) x3 (ix2 k o)) + asRow (F := Ideal) x4 (ix2 (0 : Fin 1) o) = _
  simp only [nodeW_apply, asRow_apply]
theorem edgeProj_at (e : Fin 800000) (o : Fin 64) :
    EdgeProj.proj x2 (edgeW (F := Ideal) x3) (ix2 e o) = ∑ k : Fin 32, x2 (ix2 e k) * x3 (ix2 (Cert.Spec.hiRow k) o) := by
  show (∑ k : Fin 32, x2 (ix2 e k) * edgeW (F := Ideal) x3 (ix2 k o)) = _
  simp only [edgeW_apply]

/-! ## The sums and the count -/

/-- The sums-and-count array is the scatter-add of the 65-column rows at the destinations, over the extended reals. -/
theorem sumsOf_fun : sumsOf x0 x1 x2 x3 x4
    = Ideal.hostScatterAdd (rowScatter2 50000 65 800000 Facts₀.scatter_S50000x65_S800000x1_S800000x65_1_0_0_1_wf)
        (broadcastInDim S50000x65 ![] Facts₀.bcast_S_S50000x65 (constant (F := Ideal) S_ .f32 0x00000000#32))
        (broadcastInDim S800000x1 ![0] Facts₀.bcast_S800000_S800000x1_0 (dstVec x1))
        (concatenate S800000x65 1
          [⟨S800000x64, addf (F := Ideal) (takeVal (F := Ideal) (NodeProj.proj x0 (nodeW (F := Ideal) x3) (asRow (F := Ideal) x4)) (srcVec x1))
              (EdgeProj.proj x2 (edgeW (F := Ideal) x3))⟩,
            ⟨S800000x1, broadcastInDim S800000x1 ![] Facts₀.bcast_S_S800000x1 (constant (F := Ideal) S_ .f32 0x3F800000#32)⟩]
          Facts₀.concatenates_S800000x64_S800000x1_S800000x65_d1) := rfl

section Sums
variable (hsrc : ∀ e : Fin 800000, 0 ≤ (x1 (ix2 (0 : Fin 2) e)).toInt ∧ (x1 (ix2 (0 : Fin 2) e)).toInt < 50000)
include hsrc

/-- Edge e's message, column o, as the kernel program forms it. -/
theorem msg_eq (e : Fin 800000) (o : Fin 64) :
    addf (F := Ideal) (takeVal (F := Ideal) (NodeProj.proj x0 (nodeW (F := Ideal) x3) (asRow (F := Ideal) x4)) (srcVec x1)) (EdgeProj.proj x2 (edgeW (F := Ideal) x3)) (ix2 e o)
      = Cert.Spec.msg x0 x1 x2 x3 x4 e o := by
  rw [addf_apply, taken_apply x1 hsrc, nodeProj_at, edgeProj_at]
  rfl

/-- Column o of the sums-and-count array at node n: the messages over the edges landing on n. -/
theorem sums_apply (n : Fin 50000) (o : Fin 64) :
    sumsOf x0 x1 x2 x3 x4 (ix2 n (sumCol o))
      = Cert.Spec.zero + ∑ e ∈ Finset.univ.filter (fun e : Fin 800000 => Cert.Spec.dstInt x1 e = (n.val : Int)),
          Cert.Spec.msg x0 x1 x2 x3 x4 e o := by
  rw [sumsOf_fun, rowScatter2_apply]
  have hz : broadcastInDim S50000x65 ![] Facts₀.bcast_S_S50000x65 (constant (F := Ideal) S_ .f32 0x00000000#32) (ix2 n (sumCol o))
      = Cert.Spec.zero := rfl
  rw [hz]
  refine congrArg (Cert.Spec.zero + ·) ?_
  rw [Finset.sum_filter, Finset.sum_filter]
  refine Finset.sum_congr rfl fun e _ => ?_
  rw [dstColumn_apply]
  refine congrArg (fun v => if Cert.Spec.dstInt x1 e = (n.val : Int) then v else 0) ?_
  rw [concatenate_pair_apply_left (t := S800000x65) (s₁ := S800000x64) (s₂ := S800000x1) (1 : Fin 2) _ _ _
    (ix2 e (sumCol o)) rfl (ix2 e o) (fun b => by match b with | ⟨0, _⟩ => rfl | ⟨1, _⟩ => rfl)]
  exact msg_eq x0 x1 x2 x3 x4 hsrc e o

end Sums

/-- Column 64 of the sums-and-count array at node n: one per edge landing on n. -/
theorem count_apply (n : Fin 50000) :
    sumsOf x0 x1 x2 x3 x4 (ix2 n cntCol)
      = Cert.Spec.zero + ∑ e ∈ Finset.univ.filter (fun e : Fin 800000 => Cert.Spec.dstInt x1 e = (n.val : Int)), Cert.Spec.one := by
  rw [sumsOf_fun, rowScatter2_apply]
  have hz : broadcastInDim S50000x65 ![] Facts₀.bcast_S_S50000x65 (constant (F := Ideal) S_ .f32 0x00000000#32) (ix2 n cntCol)
      = Cert.Spec.zero := rfl
  rw [hz]
  refine congrArg (Cert.Spec.zero + ·) ?_
  rw [Finset.sum_filter, Finset.sum_filter]
  refine Finset.sum_congr rfl fun e _ => ?_
  rw [dstColumn_apply]
  refine congrArg (fun v => if Cert.Spec.dstInt x1 e = (n.val : Int) then v else 0) ?_
  rw [concatenate_pair_apply_right (t := S800000x65) (s₁ := S800000x64) (s₂ := S800000x1) (1 : Fin 2) _ _ _
    (ix2 e cntCol) rfl rfl (ix2 e (0 : Fin 1))
    (fun b hb => by match b with | ⟨0, _⟩ => rfl | ⟨1, _⟩ => exact absurd rfl hb) rfl]
  rfl

/-! ## The result -/

/-- THE KERNEL PROGRAM'S RESULT at (n, o) is the layer's formula, the sources indexing x's rows. -/
theorem kernel_eq_spec
    (hsrc : ∀ e : Fin 800000, 0 ≤ (x1 (ix2 (0 : Fin 2) e)).toInt ∧ (x1 (ix2 (0 : Fin 2) e)).toInt < 50000)
    (n : Fin 50000) (o : Fin 64) :
    resultOf x0 x1 x2 x3 x4 x5 x6 (ix2 n o) = Cert.Spec.out x0 x1 x2 x3 x4 x5 x6 n o := by
  unfold resultOf
  show ((∑ k : Fin 64, x0 (ix2 n k) * x5 (ix2 k o)) + asRow (F := Ideal) x6 (ix2 (0 : Fin 1) o))
    + Ideal.div (sumsOf x0 x1 x2 x3 x4 (ix2 n (sumCol o)))
        (max (sumsOf x0 x1 x2 x3 x4 (ix2 n cntCol)) (Ideal.ofBits .f32 0x3F800000#32)) = _
  rw [asRow_apply, sums_apply x0 x1 x2 x3 x4 hsrc, count_apply]
  rfl

end Cert.KernelIdeal.KerValue

end
-- ==== Proof.RefSpec.lean ====
/-
  The reference computes the layer's formula.

  Element (n, o) of the reference's result is Spec.out at (n, o), for every input: the gather of x's rows at the wrapped
  source indices reads row s(e) (the clamp is the gather's own); the concatenate of the gathered rows with the edge
  attributes, contracted against msg_w's 96 rows, is the sum over the first 64 rows plus the sum over the last 32; the
  two scatter-adds at the destination indices are the sums over the edges landing on n of the messages and of ones.
  The one algebraic step: (A + B) + b = (A + b) + B, addition of extended reals being commutative and associative.
-/
import proofs.«408647_j9775345566348_3_alg».proof.Proof.Gen.ReferenceIdeal.Read
import proofs.«408647_j9775345566348_3_alg».proof.Proof.Spec
import proofs.«408647_j9775345566348_3_alg».proof.Proof.LibRowScatter
import proofs.«408647_j9775345566348_3_alg».proof.Proof.LibPlainDot
import proofs.«408647_j9775345566348_3_alg».proof.Proof.LibEdgeWords
import Idealize.ShloMosaic.Lib.Pipeline.Value
import Idealize.ShloMosaic.Lib.ValueLayout

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.RowScatter Idealize.ShloMosaic.EdgeWords

variable (x0 : FVec Ideal S50000x64 .f32) (x1 : IVec S2x800000 32) (x2 : FVec Ideal S800000x32 .f32)
  (x3 : FVec Ideal S96x64 .f32) (x4 : FVec Ideal S64 .f32) (x5 : FVec Ideal S64x64 .f32) (x6 : FVec Ideal S64 .f32)

/-! ## The index words -/

theorem srcWord_eq (e : Fin 800000) : val_main_v9 (F := Ideal) x1 (ix2 e (0 : Fin 1)) = Cert.Spec.srcWord x1 e := by
  unfold val_main_v9 val_main_v8 val_main_v5 val_main_v7 val_main_v4 val_main_v6 val_main_c val_main_c_0
  rw [wrapColumn_apply]
  unfold val_main_v1 val_main_v0
  rw [row0_apply]
  rfl

theorem dstWord17_eq (e : Fin 800000) : (val_main_v17 (F := Ideal) x1 (ix2 e (0 : Fin 1))).toInt = Cert.Spec.dstInt x1 e := by
  unfold val_main_v17 val_main_v3 val_main_v2
  rw [column_apply, row1_apply]
  rfl

theorem dstWord21_eq (e : Fin 800000) : (val_main_v21 (F := Ideal) x1 (ix2 e (0 : Fin 1))).toInt = Cert.Spec.dstInt x1 e := by
  unfold val_main_v21 val_main_v3 val_main_v2
  rw [column_apply, row1_apply]
  rfl

/-! ## One edge's message -/

/-- The gathered rows: row s(e) of x. -/
theorem gathered_apply (e : Fin 800000) (k : Fin 64) :
    val_main_v10 (F := Ideal) x0 x1 (ix2 e k) = x0 (ix2 (Cert.Spec.srcRow x1 e) k) := by
  unfold val_main_v10
  show Host.gather (rowGather 50000 64 800000 Facts₀.gather_S50000x64_S800000x1_S800000x64_1_0_n_n_0_1_164_wf) x0
    (val_main_v9 (F := Ideal) x1) (ix2 e k) = _
  rw [rowGather_apply (by decide), srcWord_eq]
  rfl

/-- The concatenate, on its first 64 columns: the gathered rows. -/
theorem cat_lo (e : Fin 800000) (k : Fin 64) :
    val_main_v11 (F := Ideal) x0 x1 x2 (ix2 e (Cert.Spec.loRow k)) = x0 (ix2 (Cert.Spec.srcRow x1 e) k) := by
  unfold val_main_v11
  rw [concatenate_pair_apply_left (t := S800000x96) (s₁ := S800000x64) (s₂ := S800000x32) (1 : Fin 2)
    (val_main_v10 (F := Ideal) x0 x1) x2 _ (ix2 e (Cert.Spec.loRow k)) rfl (ix2 e k)
    (fun b => by match b with | ⟨0, _⟩ => rfl | ⟨1, _⟩ => rfl)]
  exact gathered_apply x0 x1 e k

/-- The concatenate, on its last 32 columns: the edge attributes. -/
theorem cat_hi (e : Fin 800000) (k : Fin 32) :
    val_main_v11 (F := Ideal) x0 x1 x2 (ix2 e (Cert.Spec.hiRow k)) = x2 (ix2 e k) := by
  unfold val_main_v11
  exact concatenate_pair_apply_right (t := S800000x96) (s₁ := S800000x64) (s₂ := S800000x32) (1 : Fin 2)
    (val_main_v10 (F := Ideal) x0 x1) x2 _ (ix2 e (Cert.Spec.hiRow k)) rfl rfl (ix2 e k)
    (fun b hb => by match b with | ⟨0, _⟩ => rfl | ⟨1, _⟩ => exact absurd rfl hb)
    (Nat.add_comm _ _)

/-- Edge e's message, column o. -/
theorem msg_eq (e : Fin 800000) (o : Fin 64) :
    val_main_v15 (F := Ideal) x0 x1 x2 x3 x4 (ix2 e o) = Cert.Spec.msg x0 x1 x2 x3 x4 e o := by
  rw [val_main_v15_apply, val_main_v12_apply, val_main_v14_apply, val_main_v13_apply]
  have hl : ∀ k : Fin 96, lidx_main_v12 (ix2 e o) k = (ix2 e k : S800000x96.Idx) := fun k =>
    funext fun a => by match a with | ⟨0, _⟩ => rfl | ⟨1, _⟩ => rfl
  have hr : ∀ k : Fin 96, ridx_main_v12 (ix2 e o) k = (ix2 k o : S96x64.Idx) := fun k =>
    funext fun a => by match a with | ⟨0, _⟩ => rfl | ⟨1, _⟩ => rfl
  have hb : idx_main_v13 (idx_main_v14 (ix2 e o)) = (ix1 o : S64.Idx) :=
    funext fun a => by match a with | ⟨0, _⟩ => rfl
  simp only [hl, hr, hb]
  rw [Cert.Spec.sum_rows]
  simp only [cat_lo, cat_hi]
  unfold Cert.Spec.msg
  exact add_right_comm _ _ _

/-! ## The sums over the edges landing on a node -/

/-- The reference's sums array is the scatter-add of rows of the messages at the destinations, over the extended reals. -/
theorem sums_fun : val_main_v18 (F := Ideal) x0 x1 x2 x3 x4
    = Ideal.hostScatterAdd (rowScatter2 50000 64 800000 Facts₀.scatter_S50000x64_S800000x1_S800000x64_1_0_0_1_wf)
        (val_main_v16 (F := Ideal)) (val_main_v17 (F := Ideal) x1) (val_main_v15 (F := Ideal) x0 x1 x2 x3 x4) := rfl
/-- The reference's count vector is the scatter-add of ones at the destinations. -/
theorem count_fun : val_main_v22 (F := Ideal) x1
    = Ideal.hostScatterAdd (rowScatter1 50000 800000 Facts₀.scatter_S50000_S800000x1_S800000_n_0_0_1_wf)
        (val_main_v20 (F := Ideal)) (val_main_v21 (F := Ideal) x1) (val_main_v19 (F := Ideal)) := rfl

theorem sums_apply (n : Fin 50000) (o : Fin 64) :
    val_main_v18 (F := Ideal) x0 x1 x2 x3 x4 (ix2 n o)
      = Cert.Spec.zero + ∑ e ∈ Finset.univ.filter (fun e : Fin 800000 => Cert.Spec.dstInt x1 e = (n.val : Int)),
          Cert.Spec.msg x0 x1 x2 x3 x4 e o := by
  rw [sums_fun, rowScatter2_apply]
  have hz : val_main_v16 (F := Ideal) (ix2 n o) = Cert.Spec.zero := rfl
  rw [hz]
  refine congrArg (Cert.Spec.zero + ·) ?_
  rw [Finset.sum_filter, Finset.sum_filter]
  refine Finset.sum_congr rfl fun e _ => ?_
  rw [dstWord17_eq, msg_eq]

theorem count_apply (n : Fin 50000) :
    val_main_v22 (F := Ideal) x1 (ix1 n)
      = Cert.Spec.zero + ∑ e ∈ Finset.univ.filter (fun e : Fin 800000 => Cert.Spec.dstInt x1 e = (n.val : Int)), Cert.Spec.one := by
  rw [count_fun, rowScatter1_apply]
  have hz : val_main_v20 (F := Ideal) (ix1 n) = Cert.Spec.zero := rfl
  rw [hz]
  refine congrArg (Cert.Spec.zero + ·) ?_
  rw [Finset.sum_filter, Finset.sum_filter]
  refine Finset.sum_congr rfl fun e _ => ?_
  rw [dstWord21_eq]
  rfl

/-! ## The result -/

/-- The self term: x's row n against self_w's column o, plus self_b[o]. -/
theorem self_apply (n : Fin 50000) (o : Fin 64) :
    val_main_v31 (F := Ideal) x0 x5 x6 (ix2 n o) = (∑ k : Fin 64, x0 (ix2 n k) * x5 (ix2 k o)) + x6 (ix1 o) := by
  rw [val_main_v31_apply, val_main_v30_apply, val_main_v29_apply]
  have hb : idx_main_v29 (idx_main_v30 (ix2 n o)) = (ix1 o : S64.Idx) :=
    funext fun a => by match a with | ⟨0, _⟩ => rfl
  rw [hb]
  unfold val_main_v28
  show FloatOps.dotGeneral (DotDims.plain 50000 64 64) none .single x0 x5 (ix2 n o) + x6 (ix1 o) = _
  rw [PlainDot.dotGeneral_apply]

/-- THE REFERENCE'S RESULT at (n, o) is the layer's formula. -/
theorem ref_eq_spec (n : Fin 50000) (o : Fin 64) :
    val_main_v32 (F := Ideal) x0 x1 x2 x3 x4 x5 x6 (ix2 n o) = Cert.Spec.out x0 x1 x2 x3 x4 x5 x6 n o := by
  rw [val_main_v32_apply, val_main_v27_apply, val_main_v26_apply, val_main_v25_apply, val_main_v24_apply]
  have hj : idx_main_v25 (idx_main_v26 (ix2 n o)) = (ix1 n : S50000.Idx) :=
    funext fun a => by match a with | ⟨0, _⟩ => rfl
  rw [hj, self_apply, sums_apply, count_apply]
  have h1 : val_main_v23 (F := Ideal) (ix1 n) = Cert.Spec.one := rfl
  rw [h1]
  rfl

end Cert.ReferenceIdeal.RefValue

end
-- ==== Proof.PreDecode.lean ====
/-
  What the precondition says of the source indices.

  The precondition's last conjunct is jnp.all((edge_index[0:1, :] >= 0) & (edge_index[0:1, :] < 50000)): row 0 of
  edge_index, the edges' sources, indexes the 50000 rows of x. Printed, it is a reduction by `and` over the
  1 x 800000 array of the two signed comparisons' conjunction; the whole predicate being the bit 1 makes that
  reduction 1, hence every element 1, hence each source word, read signed, at least 0 and below 50000.
-/
import proofs.«408647_j9775345566348_3_alg».proof.Pre_finite_inputs
import Idealize.ShloMosaic.Lib.ReduceAll
import Idealize.ShloMosaic.Lib.Pipeline.Value
import Idealize.ShloMosaic.Lib.ValueIdx

noncomputable section

namespace Cert.Pre_finite_inputs.Decode

open Cert.Pre_finite_inputs Idealize.ShloMosaic Idealize.ShloMosaic.ValueIdx

variable {F : FTy → Type} [FloatOps F] [Cert.Pre_finite_inputs.Facts]

instance : Subsingleton S_.Idx := ⟨fun a b => funext fun d => d.elim0⟩

/-- Under the precondition every source index lies in [0, 50000), read as a signed integer. -/
theorem src_in_table (a0 : FVec F S50000x64 .f32) (a1 : IVec S2x800000 32) (a2 : FVec F S800000x32 .f32)
    (a3 : FVec F S96x64 .f32) (a4 : FVec F S64 .f32) (a5 : FVec F S64x64 .f32) (a6 : FVec F S64 .f32)
    (h : fn (F := F) a0 a1 a2 a3 a4 a5 a6 = fun _ => 1#1) (e : Fin 800000) :
    0 ≤ (a1 (ix2 (0 : Fin 2) e)).toInt ∧ (a1 (ix2 (0 : Fin 2) e)).toInt < 50000 := by
  have h0 := congrFun h ix0
  unfold fn fn_part1 fn_part2 at h0
  dsimp only at h0
  have h1 := (IntOp.andi_eq_one.1 h0).2
  have h2 := Host.reduce_andi_all _ _ _ _ ix0 h1 (ix2 (0 : Fin 1) e)
  obtain ⟨hge, hlt⟩ := IntOp.andi_eq_one.1 h2
  have hs : extractStridedSlice S1x800000 ![0, 0] a1 Facts.slices_S2x800000_S1x800000_0_0 (ix2 (0 : Fin 1) e)
      = a1 (ix2 (0 : Fin 2) e) :=
    extractStridedSlice_apply _ a1 _ (ix2 (0 : Fin 1) e) (ix2 (0 : Fin 2) e)
      (fun a => by match a with | ⟨0, _⟩ => rfl | ⟨1, _⟩ => exact (Nat.zero_add _).symm)
  have g := IntOp.cmpi_sge.1 hge
  have l := IntOp.cmpi_slt.1 hlt
  rw [hs] at g l
  have hz : (0#32 : BitVec 32).toInt = 0 := by decide
  have hm : (50000#32 : BitVec 32).toInt = 50000 := by decide
  exact ⟨hz ▸ g, hm ▸ l⟩

end Cert.Pre_finite_inputs.Decode

end
-- ==== Proof.lean ====
/-
  EdgeSage layer (gather over edges, message linear map, scatter-mean over destinations, self linear map): the Pallas
  program against its jnp reference, over the extended reals.

  Both programs compute, for node n and output column o,
    out[n, o] = (sum_k x[n, k] * self_w[k, o] + self_b[o])
                + (sum over edges e with dst(e) = n of msg[e, o]) / max(#{e : dst(e) = n}, 1),
    msg[e, o] = sum_{k < 64} x[src(e), k] * msg_w[k, o] + msg_b[o] + sum_{k < 32} ea[e, k] * msg_w[64 + k, o].
  The reference gathers rows of x, joins them with the edge attributes and contracts against all 96 rows of msg_w; the
  kernel program projects x and the edge attributes separately (msg_w's first 64 and last 32 rows), gathers rows of the
  projected table, and adds. The two messages are the same three terms grouped (A + B) + b and (A + b) + B; sums over the
  96 rows split as 64 + 32; addition of extended reals is commutative and associative, so no finiteness is used. The
  kernel program sums messages and counts edges in ONE scatter-add of 65 columns, the reference in two; both drop an edge
  whose destination is no node. The one place the two differ outside the stated domain is the gather: the reference's
  clamps an out-of-range source, the kernel program's take fills the row with the NaN word. Under the precondition
  (sources in [0, 50000)) the take's range test passes at every edge and the two agree.
  The frames are the generated ones; the reference's is its generated run with the result dropped.
-/
import proofs.«408647_j9775345566348_3_alg».proof.Defs
import proofs.«408647_j9775345566348_3_alg».proof.Proof.Gen.Kernel
import proofs.«408647_j9775345566348_3_alg».proof.Proof.Gen.Kernel.Skeleton
import proofs.«408647_j9775345566348_3_alg».proof.Proof.Gen.Kernel.Launch
import proofs.«408647_j9775345566348_3_alg».proof.Proof.Gen.Kernel.Points
import proofs.«408647_j9775345566348_3_alg».proof.Proof.Gen.Kernel.Frame
import proofs.«408647_j9775345566348_3_alg».proof.Proof.Gen.KernelIdeal
import proofs.«408647_j9775345566348_3_alg».proof.Proof.Gen.KernelIdeal.Skeleton
import proofs.«408647_j9775345566348_3_alg».proof.Proof.Gen.KernelIdeal.Launch
import proofs.«408647_j9775345566348_3_alg».proof.Proof.Gen.KernelIdeal.Points
import proofs.«408647_j9775345566348_3_alg».proof.Proof.Gen.KernelIdeal.Frame
import proofs.«408647_j9775345566348_3_alg».proof.Proof.Gen.ReferenceIdeal
import proofs.«408647_j9775345566348_3_alg».proof.Proof.Gen.Pre_finite_inputs
import proofs.«408647_j9775345566348_3_alg».proof.Proof.Gen.ReferenceIdeal.Run
import proofs.«408647_j9775345566348_3_alg».proof.Proof.Gen.ReferenceIdeal.Read
import proofs.«408647_j9775345566348_3_alg».proof.Proof.KernelRun
import proofs.«408647_j9775345566348_3_alg».proof.Proof.KernelValue
import proofs.«408647_j9775345566348_3_alg».proof.Proof.KernelSpec
import proofs.«408647_j9775345566348_3_alg».proof.Proof.RefSpec
import proofs.«408647_j9775345566348_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- From memories agreeing on the seven arguments, the sources indexing x's rows, both programs end with the layer's
    formula in their result arrays. -/
theorem algebraic : Cert.algebraic_KernelIdeal_ReferenceIdeal := by
  intro m ρ m' ρ' hpre hagree
  refine ⟨fun c => Cert.KernelIdeal.Whole.result m c, ?_, ?_⟩
  · exact (θ_run Cert.KernelIdeal.defs _ _).mono
      (fun r h c => ⟨(h c).1.trans (Cert.KernelIdeal.Whole.W6_v17 m ρ c), (h c).2⟩)
      (Cert.KernelIdeal.Run.run_out m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v32_eq _ _ _ _ _ _ _).trans ?_
    obtain ⟨e0, e1, e2, e3, e4, e5, e6⟩ := hagree c
    rw [e0, e1, e2, e3, e4, e5, e6]
    have hsrc := Cert.Pre_finite_inputs.Decode.src_in_table _ _ _ _ _ _ _ (hpre c)
    funext i
    obtain ⟨n, o, rfl⟩ : ∃ (n : Fin 50000) (o : Fin 64), i = ix2 n o := ⟨i 0, i 1, eq_ix2 i⟩
    refine (Cert.ReferenceIdeal.RefValue.ref_eq_spec _ _ _ _ _ _ _ n o).trans ?_
    exact (Cert.KernelIdeal.KerValue.kernel_eq_spec _ _ _ _ _ _ _ hsrc n o).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
